-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S256x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x128 : Shape := ⟨3, ![32, 256, 128]⟩
abbrev S32x256x64x64 : Shape := ⟨4, ![32, 256, 64, 64]⟩
abbrev S32x256x64 : Shape := ⟨3, ![32, 256, 64]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S32x256x128 : S_.BroadcastsInDim S32x256x128 (![] : Fin 0 → Fin S32x256x128.rank)
  reducesTo_S32x256x128_S_d0_1_2 : S32x256x128.ReducesTo [0, 1, 2] S_
  h_S_ : 0 < S_.numel
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  bcast_S_S32x256x64 : S_.BroadcastsInDim S32x256x64 (![] : Fin 0 → Fin S32x256x64.rank)
  reducesTo_S32x256x64_S_d0_1_2 : S32x256x64.ReducesTo [0, 1, 2] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg2 : IVec S32x256x64 32) (main_v33 : IVec S_ 1) : IVec S_ 1 :=
  let main_c_12 : IVec S_ 32 := constantI S_ 32 0#32
  let main_v34 : IVec S32x256x64 32 := broadcastInDim S32x256x64 ![] bcast_S_S32x256x64 main_c_12
  let main_v35 : IVec S32x256x64 1 := cmpi .sge main_arg2 main_v34
  let main_c_13 : IVec S_ 1 := constantI S_ 1 1#1
  let main_v36 : IVec S_ 1 := (fun x v => Host.reduce IntOp.andi x v reducesTo_S32x256x64_S_d0_1_2 h_S_) main_v35 main_c_13
  let main_v37 : IVec S_ 1 := andi main_v33 main_v36
  let main_c_14 : IVec S_ 32 := constantI S_ 32 256#32
  let main_v38 : IVec S32x256x64 32 := broadcastInDim S32x256x64 ![] bcast_S_S32x256x64 main_c_14
  let main_v39 : IVec S32x256x64 1 := cmpi .slt main_arg2 main_v38
  let main_c_15 : IVec S_ 1 := constantI S_ 1 1#1
  let main_v40 : IVec S_ 1 := (fun x v => Host.reduce IntOp.andi x v reducesTo_S32x256x64_S_d0_1_2 h_S_) main_v39 main_c_15
  let main_v41 : IVec S_ 1 := andi main_v37 main_v40
  main_v41

def fn_part1 {F : FTy → Type} [FloatOps F] (main_arg2 : IVec S32x256x64 32) (main_arg5 : FVec F S128 .f32) (main_arg6 : FVec F S128x128 .f32) (main_arg7 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_v33

def fn {F : FTy → Type} [FloatOps F] (main_arg0 : FVec F S32x256x128 .f32) (main_arg1 : FVec F S32x256x64x64 .f32) (main_arg2 : IVec S32x256x64 32) (main_arg3 : FVec F S32x256x64 .f32) (main_arg4 : FVec F S64x128 .f32) (main_arg5 : FVec F S128 .f32) (main_arg6 : FVec F S128x128 .f32) (main_arg7 : FVec F S128 .f32) : IVec S_ 1 :=
  let main_v0 : FVec F S32x256x128 .f32 := Host.absf main_arg0
  let main_cst : FVec F S_ .f32 := constant S_ .f32 0x7F800000#32
  let main_v1 : FVec F S32x256x128 .f32 := broadcastInDim S32x256x128 ![] bcast_S_S32x256x128 main_cst
  let main_v2 : IVec S32x256x128 1 := cmpf .olt main_v0 main_v1
  let main_c : IVec S_ 1 := constantI S_ 1 1#1
  let main_v3 : IVec S_ 1 := (fun x v => Host.reduce IntOp.andi x v reducesTo_S32x256x128_S_d0_1_2 h_S_) main_v2 main_c
  let main_v4 : FVec F S32x256x64x64 .f32 := Host.absf main_arg1
  let main_cst_0 : FVec F S_ .f32 := constant S_ .f32 0x7F800000#32
  let main_v5 : FVec F S32x256x64x64 .f32 := broadcastInDim S32x256x64x64 ![] bcast_S_S32x256x64x64 main_cst_0
  let main_v6 : IVec S32x256x64x64 1 := cmpf .olt main_v4 main_v5
  let main_c_1 : IVec S_ 1 := constantI S_ 1 1#1
  let main_v7 : IVec S_ 1 := (fun x v => Host.reduce IntOp.andi x v reducesTo_S32x256x64x64_S_d0_1_2_3 h_S_) main_v6 main_c_1
  let main_v8 : IVec S_ 1 := andi main_v3 main_v7
  let main_v9 : FVec F S32x256x64 .f32 := Host.absf main_arg3
  let main_cst_2 : FVec F S_ .f32 := constant S_ .f32 0x7F800000#32
  let main_v10 : FVec F S32x256x64 .f32 := broadcastInDim S32x256x64 ![] bcast_S_S32x256x64 main_cst_2
  let main_v11 : IVec S32x256x64 1 := cmpf .olt main_v9 main_v10
  let main_c_3 : IVec S_ 1 := constantI S_ 1 1#1
  let main_v12 : IVec S_ 1 := (fun x v => Host.reduce IntOp.andi x v reducesTo_S32x256x64_S_d0_1_2 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg2 main_arg5 main_arg6 main_arg7 main_v13 main_v16
-- ==== Kernel.lean ====
abbrev S32x256x128 : Shape := ⟨3, ![32, 256, 128]⟩
abbrev S32x256x64x64 : Shape := ⟨4, ![32, 256, 64, 64]⟩
abbrev S32x256x64 : Shape := ⟨3, ![32, 256, 64]⟩
abbrev S64x128 : Shape := ⟨2, ![64, 128]⟩
abbrev S128 : Shape := ⟨1, ![128]⟩
abbrev S128x128 : Shape := ⟨2, ![128, 128]⟩
abbrev S_ : Shape := ⟨0, ![]⟩
abbrev S1x64x64x64 : Shape := ⟨4, ![1, 64, 64, 64]⟩
abbrev S1x256x128 : Shape := ⟨3, ![1, 256, 128]⟩
abbrev S1x64x64 : Shape := ⟨3, ![1, 64, 64]⟩
abbrev S1x64x128 : Shape := ⟨3, ![1, 64, 128]⟩
abbrev S64x64x64 : Shape := ⟨3, ![64, 64, 64]⟩
abbrev S4096x64 : Shape := ⟨2, ![4096, 64]⟩
abbrev S4096x128 : Shape := ⟨2, ![4096, 128]⟩
abbrev S1x128 : Shape := ⟨2, ![1, 128]⟩
abbrev S256x128 : Shape := ⟨2, ![256, 128]⟩
abbrev S64x64 : Shape := ⟨2, ![64, 64]⟩
abbrev S64x64x256 : Shape := ⟨3, ![64, 64, 256]⟩
abbrev S64x64x1 : Shape := ⟨3, ![64, 64, 1]⟩
abbrev S4096x256 : Shape := ⟨2, ![4096, 256]⟩
abbrev S64x64x128 : Shape := ⟨3, ![64, 64, 128]⟩

abbrev nBuf : Space → Nat
  | .hbm => 19
  | .vmem => 14
  | .smem => 0
  | _ => 0

abbrev bufTy : (tb : Table) → Fin (tcTables nBuf tb) → BufTy
  | .hbm, ⟨0, _⟩ => ⟨S32x256x128, .f32⟩
  | .hbm, ⟨1, _⟩ => ⟨S32x256x64x64, .f32⟩
  | .hbm, ⟨2, _⟩ => ⟨S32x256x64, .i32⟩
  | .hbm, ⟨3, _⟩ => ⟨S32x256x64, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S32x256x64, .i32⟩
  | .hbm, ⟨12, _⟩ => ⟨S32x256x64, .i32⟩
  | .hbm, ⟨13, _⟩ => ⟨S_, .i32⟩
  | .hbm, ⟨14, _⟩ => ⟨S32x256x64, .i32⟩
  | .hbm, ⟨15, _⟩ => ⟨S32x256x64, .i32⟩
  | .hbm, ⟨16, _⟩ => ⟨S64x128, .bf16⟩
  | .hbm, ⟨17, _⟩ => ⟨S128x128, .bf16⟩
  | .hbm, ⟨18, _⟩ => ⟨S32x256x128, .f32⟩
  | .local _ .vmem, ⟨0, _⟩ => ⟨S1x64x64x64, .f32⟩
  | .local _ .vmem, ⟨1, _⟩ => ⟨S1x64x64x64, .f32⟩
  | .local _ .vmem, ⟨2, _⟩ => ⟨S1x256x128, .f32⟩
  | .local _ .vmem, ⟨3, _⟩ => ⟨S1x256x128, .f32⟩
  | .local _ .vmem, ⟨4, _⟩ => ⟨S1x64x64, .i32⟩
  | .local _ .vmem, ⟨5, _⟩ => ⟨S1x64x64, .i32⟩
  | .local _ .vmem, ⟨6, _⟩ => ⟨S1x64x64, .f32⟩
  | .local _ .vmem, ⟨7, _⟩ => ⟨S1x64x64, .f32⟩
  | .local _ .vmem, ⟨8, _⟩ => ⟨S64x128, .bf16⟩
  | .local _ .vmem, ⟨9, _⟩ => ⟨S128, .f32⟩
  | .local _ .vmem, ⟨10, _⟩ => ⟨S128x128, .bf16⟩
  | .local _ .vmem, ⟨11, _⟩ => ⟨S128, .f32⟩
  | .local _ .vmem, ⟨12, _⟩ => ⟨S1x64x128, .f32⟩
  | .local _ .vmem, ⟨13, _⟩ => ⟨S1x64x128, .f32⟩
  | _, _ => ⟨S32x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bcast_S_S32x256x64 : S_.BroadcastsInDim S32x256x64 (![] : Fin 0 → Fin S32x256x64.rank)
  bitsLt_bf16_f32 : FTy.bits .bf16 < FTy.bits .f32
  inb_S1x64x64x64_S1x64x64x64_0_0_0_0 : ∀ a, (![0, 0, 0, 0] : Fin 4 → Nat) a + S1x64x64x64.size a ≤ S1x64x64x64.size a
  h_S1x64x64x64 : 0 < S1x64x64x64.numel
  shapeCasts_S1x64x64x64_S64x64x64 : S1x64x64x64.ShapeCasts S64x64x64
  shapeCasts_S64x64x64_S4096x64 : S64x64x64.ShapeCasts S4096x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  iota_S64x64x256_d2_w32 : S64x64x256.Iotas .tc 32 [2]
  shapeCasts_S64x64_S64x64x1 : S64x64.ShapeCasts S64x64x1
  broadcasts_S64x64x1_S64x64x256 : S64x64x1.Broadcasts S64x64x256
  natLt_1_32 : 1 < 32
  shapeCasts_S64x64x256_S4096x256 : S64x64x256.ShapeCasts S4096x256
  shapeCasts_S4096x128_S64x64x128 : S4096x128.ShapeCasts S64x64x128
  broadcasts_S64x64x1_S64x64x128 : S64x64x1.Broadcasts S64x64x128
  reduces_S64x64x128_S64x128 : S64x64x128.Reduces [1] S64x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  dot_S4096x64_S64x128_S4096x128_1_0_0_1_n_n_wf : DotDims.WF S4096x64 S64x128 S4096x128 [1] [0] [0] [1] [] []
  dot_S4096x128_S128x128_S4096x128_1_0_0_1_n_n_wf : DotDims.WF S4096x128 S128x128 S4096x128 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x64.size a ≤ S32x256x64x64.size a
  hwx0_0 : ∀ i : grid0.Coords, EltTy.bits .f32 = 32 ∨ (Rect.block (s := S32x256x64x64) S1x64x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x128.size a ≤ S32x256x128.size a
  hwx0_1 : ∀ i : grid0.Coords, EltTy.bits .f32 = 32 ∨ (Rect.block (s := S32x256x128) S1x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S32x256x64.size a
  hwx0_2 : ∀ i : grid0.Coords, EltTy.bits .i32 = 32 ∨ (Rect.block (s := S32x256x64) S1x64x64.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x64.size a ≤ S32x256x64.size a
  hwx0_3 : ∀ i : grid0.Coords, EltTy.bits .f32 = 32 ∨ (Rect.block (s := S32x256x64) S1x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .bf16 = 32 ∨ (Rect.block (s := S64x128) S64x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x128.size a ≤ S32x256x128.size a
  hwx0_8 : ∀ i : grid0.Coords, EltTy.bits .f32 = 32 ∨ (Rect.block (s := S32x256x128) S1x64x128.size (cc0_transform_8 i) (hinb0_8 i)).WholeWords (EltTy.packing .f32)

variable [Facts₀]

def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_arg1) S1x64x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x64x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x64x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x256x128 : Shape := ⟨3, ![32, 256, 128]⟩
abbrev S32x256x64x64 : Shape := ⟨4, ![32, 256, 64, 64]⟩
abbrev S32x256x64 : Shape := ⟨3, ![32, 256, 64]⟩
abbrev S64x128 : Shape := ⟨2, ![64, 128]⟩
abbrev S128 : Shape := ⟨1, ![128]⟩
abbrev S128x128 : Shape := ⟨2, ![128, 128]⟩
abbrev S32x256x64x128 : Shape := ⟨4, ![32, 256, 64, 128]⟩
abbrev S1x1x1x128 : Shape := ⟨4, ![1, 1, 1, 128]⟩
abbrev S_ : Shape := ⟨0, ![]⟩
abbrev S32x16384 : Shape := ⟨2, ![32, 16384]⟩
abbrev S32x16384x1 : Shape := ⟨3, ![32, 16384, 1]⟩
abbrev S1 : Shape := ⟨1, ![1]⟩
abbrev S1x1x1 : Shape := ⟨3, ![1, 1, 1]⟩
abbrev S32x16384x128 : Shape := ⟨3, ![32, 16384, 128]⟩
abbrev S32x256x64x1 : Shape := ⟨4, ![32, 256, 64, 1]⟩

abbrev nBuf : Space → Nat
  | .hbm => 64
  | .vmem => 0
  | .smem => 0
  | _ => 0

abbrev bufTy : (tb : Table) → Fin (tcTables nBuf tb) → BufTy
  | .hbm, ⟨0, _⟩ => ⟨S32x256x128, .f32⟩
  | .hbm, ⟨1, _⟩ => ⟨S32x256x64x64, .f32⟩
  | .hbm, ⟨2, _⟩ => ⟨S32x256x64, .i32⟩
  | .hbm, ⟨3, _⟩ => ⟨S32x256x64, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S32x256x64x128, .f32⟩
  | .hbm, ⟨9, _⟩ => ⟨S1x1x1x128, .f32⟩
  | .hbm, ⟨10, _⟩ => ⟨S32x256x64x128, .f32⟩
  | .hbm, ⟨11, _⟩ => ⟨S32x256x64x128, .f32⟩
  | .hbm, ⟨12, _⟩ => ⟨S_, .f32⟩
  | .hbm, ⟨13, _⟩ => ⟨S32x256x64x128, .f32⟩
  | .hbm, ⟨14, _⟩ => ⟨S32x256x64x128, .f32⟩
  | .hbm, ⟨15, _⟩ => ⟨S32x256x64x128, .f32⟩
  | .hbm, ⟨16, _⟩ => ⟨S32x256x64x128, .f32⟩
  | .hbm, ⟨17, _⟩ => ⟨S32x256x64x128, .i1⟩
  | .hbm, ⟨18, _⟩ => ⟨S32x256x64x128, .f32⟩
  | .hbm, ⟨19, _⟩ => ⟨S32x256x64x128, .f32⟩
  | .hbm, ⟨20, _⟩ => ⟨S32x256x64x128, .f32⟩
  | .hbm, ⟨21, _⟩ => ⟨S32x256x64x128, .f32⟩
  | .hbm, ⟨22, _⟩ => ⟨S32x256x64x128, .f32⟩
  | .hbm, ⟨23, _⟩ => ⟨S32x256x64x128, .f32⟩
  | .hbm, ⟨24, _⟩ => ⟨S32x256x64x128, .f32⟩
  | .hbm, ⟨25, _⟩ => ⟨S32x256x64x128, .f32⟩
  | .hbm, ⟨26, _⟩ => ⟨S_, .f32⟩
  | .hbm, ⟨27, _⟩ => ⟨S32x256x64x128, .f32⟩
  | .hbm, ⟨28, _⟩ => ⟨S32x256x64x128, .f32⟩
  | .hbm, ⟨29, _⟩ => ⟨S32x256x64x128, .f32⟩
  | .hbm, ⟨30, _⟩ => ⟨S1x1x1x128, .f32⟩
  | .hbm, ⟨31, _⟩ => ⟨S32x256x64x128, .f32⟩
  | .hbm, ⟨32, _⟩ => ⟨S32x256x64x128, .f32⟩
  | .hbm, ⟨33, _⟩ => ⟨S32x16384, .i32⟩
  | .hbm, ⟨34, _⟩ => ⟨S32x16384x1, .i32⟩
  | .hbm, ⟨35, _⟩ => ⟨S_, .i32⟩
  | .hbm, ⟨36, _⟩ => ⟨S32x16384x1, .i32⟩
  | .hbm, ⟨37, _⟩ => ⟨S32x16384x1, .i1⟩
  | .hbm, ⟨38, _⟩ => ⟨S_, .i32⟩
  | .hbm, ⟨39, _⟩ => ⟨S32x16384x1, .i32⟩
  | .hbm, ⟨40, _⟩ => ⟨S32x16384x1, .i32⟩
  | .hbm, ⟨41, _⟩ => ⟨S32x16384x1, .i32⟩
  | .hbm, ⟨42, _⟩ => ⟨S1, .i32⟩
  | .hbm, ⟨43, _⟩ => ⟨S_, .i32⟩
  | .hbm, ⟨44, _⟩ => ⟨S32x16384x1, .i32⟩
  | .hbm, ⟨45, _⟩ => ⟨S32x16384x1, .i1⟩
  | .hbm, ⟨46, _⟩ => ⟨S1x1x1, .i32⟩
  | .hbm, ⟨47, _⟩ => ⟨S32x16384x1, .i32⟩
  | .hbm, ⟨48, _⟩ => ⟨S32x16384x1, .i1⟩
  | .hbm, ⟨49, _⟩ => ⟨S32x16384x1, .i1⟩
  | .hbm, ⟨50, _⟩ => ⟨S_, .i1⟩
  | .hbm, ⟨51, _⟩ => ⟨S32x16384, .i1⟩
  | .hbm, ⟨52, _⟩ => ⟨S32x16384x128, .f32⟩
  | .hbm, ⟨53, _⟩ => ⟨S32x16384x128, .i1⟩
  | .hbm, ⟨54, _⟩ => ⟨S_, .f32⟩
  | .hbm, ⟨55, _⟩ => ⟨S32x16384x128, .f32⟩
  | .hbm, ⟨56, _⟩ => ⟨S32x16384x128, .f32⟩
  | .hbm, ⟨57, _⟩ => ⟨S32x256x64x128, .f32⟩
  | .hbm, ⟨58, _⟩ => ⟨S32x256x64x128, .f32⟩
  | .hbm, ⟨59, _⟩ => ⟨S32x256x64x1, .f32⟩
  | .hbm, ⟨60, _⟩ => ⟨S32x256x64x128, .f32⟩
  | .hbm, ⟨61, _⟩ => ⟨S32x256x64x128, .f32⟩
  | .hbm, ⟨62, _⟩ => ⟨S_, .f32⟩
  | .hbm, ⟨63, _⟩ => ⟨S32x256x128, .f32⟩
  | _, _ => ⟨S32x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v4 : Ref sig .tc := ⟨.hbm, 25, rfl⟩
abbrev main_cst : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_c_2 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_c_3 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_cst : Ref sig .tc := ⟨.hbm, 54, rfl⟩
abbrev main_call1_v14 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_0 : Ref sig .tc := ⟨.hbm, 62, rfl⟩
abbrev main_v19 : Ref sig .tc := ⟨.hbm, 63, rfl⟩

abbrev nD : Nat := 1
abbrev τ : Topo := Topo.v7x

variable {F : FTy → Type} [FloatOps F]

class Facts₀ : Prop where
  bcast_S128_S1x1x1x128_3 : S128.BroadcastsInDim S1x1x1x128 (![3] : Fin 1 → Fin S1x1x1x128.rank)
  bcast_S1x1x1x128_S32x256x64x128_0_1_2_3 : S1x1x1x128.BroadcastsInDim S32x256x64x128 (![0, 1, 2, 3] : Fin 4 → Fin S32x256x64x128.rank)
  bcast_S_S32x256x64x128 : S_.BroadcastsInDim S32x256x64x128 (![] : Fin 0 → Fin S32x256x64x128.rank)
  shapeCasts_S32x256x64_S32x16384 : S32x256x64.ShapeCasts S32x16384
  bcast_S32x16384_S32x16384x1_0_1 : S32x16384.BroadcastsInDim S32x16384x1 (![0, 1] : Fin 2 → Fin S32x16384x1.rank)
  bcast_S_S32x16384x1 : S_.BroadcastsInDim S32x16384x1 (![] : Fin 0 → Fin S32x16384x1.rank)
  bcast_S1_S1x1x1_2 : S1.BroadcastsInDim S1x1x1 (![2] : Fin 1 → Fin S1x1x1.rank)
  bcast_S1x1x1_S32x16384x1_0_1_2 : S1x1x1.BroadcastsInDim S32x16384x1 (![0, 1, 2] : Fin 3 → Fin S32x16384x1.rank)
  reducesTo_S32x16384x1_S32x16384_d2 : S32x16384x1.ReducesTo [2] S32x16384
  h_S_ : 0 < S_.numel
  bcast_S32x16384_S32x16384x128_0_1 : S32x16384.BroadcastsInDim S32x16384x128 (![0, 1] : Fin 2 → Fin S32x16384x128.rank)
  bcast_S_S32x16384x128 : S_.BroadcastsInDim S32x16384x128 (![] : Fin 0 → Fin S32x16384x128.rank)
  shapeCasts_S32x16384x128_S32x256x64x128 : S32x16384x128.ShapeCasts S32x256x64x128
  bcast_S32x256x64_S32x256x64x1_0_1_2 : S32x256x64.BroadcastsInDim S32x256x64x1 (![0, 1, 2] : Fin 3 → Fin S32x256x64x1.rank)
  bcast_S32x256x64x1_S32x256x64x128_0_1_2_3 : S32x256x64x1.BroadcastsInDim S32x256x64x128 (![0, 1, 2, 3] : Fin 4 → Fin S32x256x64x128.rank)
  reducesTo_S32x256x64x128_S32x256x128_d2 : S32x256x64x128.ReducesTo [2] S32x256x128
  dot_S32x256x64x64_S64x128_S32x256x64x128_3_0_012_1_n_n_wf : DotDims.WF S32x256x64x64 S64x128 S32x256x64x128 [3] [0] [0, 1, 2] [1] [] []
  dot_S32x256x64x128_S128x128_S32x256x64x128_3_0_012_1_n_n_wf : DotDims.WF S32x256x64x128 S128x128 S32x256x64x128 [3] [0] [0, 1, 2] [1] [] []
  gather_S32x256x128_S32x16384x1_S32x16384x128_2_1_0_0_1_2_11128_wf : GatherDims.WF S32x256x128 S32x16384x1 S32x16384x128 [2] [1] [0] [1] [0] 2 ![1, 1, 128]

variable [Facts₀]

def dot_S32x256x64x64_S64x128_S32x256x64x128_3_0_012_1_n_n : DotDims S32x256x64x64 S64x128 S32x256x64x128 where
  lhsContracting := [3]
  rhsContracting := [0]
  lhsNonContracting := [0, 1, 2]
  rhsNonContracting := [1]
  lhsBatch := []
  rhsBatch := []
  wf := dot_S32x256x64x64_S64x128_S32x256x64x128_3_0_012_1_n_n_wf
def dot_S32x256x64x128_S128x128_S32x256x64x128_3_0_012_1_n_n : DotDims S32x256x64x128 S128x128 S32x256x64x128 where
  lhsContracting := [3]
  rhsContracting := [0]
  lhsNonContracting := [0, 1, 2]
  rhsNonContracting := [1]
  lhsBatch := []
  rhsBatch := []
  wf := dot_S32x256x64x128_S128x128_S32x256x64x128_3_0_012_1_n_n_wf
def gather_S32x256x128_S32x16384x1_S32x16384x128_2_1_0_0_1_2_11128 : GatherDims S32x256x128 S32x16384x1 S32x16384x128 where
  offsetDims := [2]
  collapsedSliceDims := [1]
  operandBatchingDims := [0]
  startIndicesBatchingDims := [0]
  startIndexMap := [1]
  indexVectorDim := 2
  sliceSizes := ![1, 1, 128]
  wf := gather_S32x256x128_S32x16384x1_S32x16384x128_2_1_0_0_1_2_11128_wf

class Facts : Prop extends Facts₀ where

variable [Facts]
-- ==== Proof.Spec.lean ====
/-
  The mathematics both programs compute, over the extended reals, stated once and over no program.

  For batch `b`, atom `n`, channel `f`:
    out[b, n, f] = Σ_k ( feat[b, idx[b, n, k], f] · filt[b, n, k, f] ) · mask[b, n, k]
  where the filter is a two-layer perceptron of the radial basis row `rbf[b, n, k, ·]`:
    hid[f']  = Σ_g rbf[b, n, k, g] · W1[g, f'] + b1[f']
    filt[f]  = Σ_f' ssp(hid[f']) · W2[f', f] + b2[f]
  and `ssp` is the shifted softplus  x ↦ max(x, 0) + log(1 + exp(−|x − 0|)) − c,  c the f32 word 0x3F317218
  (the literal 0.693147182 both programs carry; it is never evaluated). The neighbour index is read as a row
  number of the 256-row feature table: `row w = min w.toNat 255`, which is `w.toNat` on the domain 0 ≤ w < 256.
-/
import Idealize.ShloMosaic.PureOps.Ideal
import Idealize.ShloMosaic.Lib.ValueIdx

noncomputable section

namespace Cert.Spec

open Idealize.ShloMosaic Idealize.ShloMosaic.ValueIdx

/-- The f32 word of +0.0 as an extended real (it is `0`: `Ideal.ofBits_zero_f32`). -/
abbrev zeroW : EReal := Ideal.ofBits .f32 0x00000000#32
/-- The f32 word 0x3F317218 (the literal 0.693147182) as an extended real; the same word on both sides. -/
abbrev ln2W : EReal := Ideal.ofBits .f32 0x3F317218#32

/-- Shifted softplus as both programs spell it: `max(x, 0) + log1p(exp(−|x − 0|)) − c`, with `|y| = max y (−y)`. -/
def ssp (x : EReal) : EReal :=
  (max x zeroW + Ideal.log1p (Ideal.exp (-(max (x - zeroW) (-(x - zeroW)))))) - ln2W

/-- A neighbour index word read as a row of the 256-row feature table. -/
def row (w : BitVec 32) : Fin 256 := ⟨min w.toNat 255, by omega⟩

theorem row_val_of_lt {w : BitVec 32} (h : w.toNat < 256) : (row w).val = w.toNat := by
  show min w.toNat 255 = w.toNat
  omega

/-- Row `64·r + k` of the 4096-row matrices the kernel forms from a tile of 64 atoms × 64 neighbours. -/
def flat (r k : Fin 64) : Fin 4096 := ⟨64 * r.val + k.val, by have := r.isLt; have := k.isLt; omega⟩

/-- First layer at hidden channel `f` for one radial-basis row `rb : g ↦ rbf[b, n, k, g]`. -/
def hidRow (rb : Fin 64 → EReal) (W1 : (⟨2, ![64, 128]⟩ : Shape).Idx → EReal) (b1 : (⟨1, ![128]⟩ : Shape).Idx → EReal)
    (f : Fin 128) : EReal :=
  (∑ g : Fin 64, rb g * W1 (ix2 g f)) + b1 (ix1 f)

/-- The filter at output channel `f` for one radial-basis row. -/
def filtRow (rb : Fin 64 → EReal) (W1 : (⟨2, ![64, 128]⟩ : Shape).Idx → EReal) (b1 : (⟨1, ![128]⟩ : Shape).Idx → EReal)
    (W2 : (⟨2, ![128, 128]⟩ : Shape).Idx → EReal) (b2 : (⟨1, ![128]⟩ : Shape).Idx → EReal) (f : Fin 128) : EReal :=
  (∑ f' : Fin 128, ssp (hidRow rb W1 b1 f') * W2 (ix2 f' f)) + b2 (ix1 f)

/-- One output element from its ingredients: the feature column `n ↦ feat[b, n, f]`, the atom's 64 neighbour
    words, the 64 filter values and the 64 mask values. -/
def outElt (featAt : Fin 256 → EReal) (nbr : Fin 64 → BitVec 32) (fil : Fin 64 → EReal) (msk : Fin 64 → EReal) : EReal :=
  ∑ k : Fin 64, (featAt (row (nbr k)) * fil k) * msk k

/-- The output at explicit coordinates (batch, atom, channel). -/
def outAt (feat : (⟨3, ![32, 256, 128]⟩ : Shape).Idx → EReal) (rbf : (⟨4, ![32, 256, 64, 64]⟩ : Shape).Idx → EReal)
    (idx : (⟨3, ![32, 256, 64]⟩ : Shape).Idx → BitVec 32) (mask : (⟨3, ![32, 256, 64]⟩ : Shape).Idx → EReal)
    (W1 : (⟨2, ![64, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (b : Fin 32) (n : Fin 256) (f : Fin 128) : EReal :=
  outElt (fun n' => feat (ix3 b n' f)) (fun k => idx (ix3 b n k))
    (fun k => filtRow (fun g => rbf (ix4 b n k g)) W1 b1 W2 b2 f) (fun k => mask (ix3 b n k))

/-- The whole result array as one function of the eight argument arrays. -/
def G (feat : (⟨3, ![32, 256, 128]⟩ : Shape).Idx → EReal) (rbf : (⟨4, ![32, 256, 64, 64]⟩ : Shape).Idx → EReal)
    (idx : (⟨3, ![32, 256, 64]⟩ : Shape).Idx → BitVec 32) (mask : (⟨3, ![32, 256, 64]⟩ : Shape).Idx → EReal)
    (W1 : (⟨2, ![64, 128]⟩ : Shape).Idx → EReal) (b1 : (⟨1, ![128]⟩ : Shape).Idx → EReal)
    (W2 : (⟨2, ![128, 128]⟩ : Shape).Idx → EReal) (b2 : (⟨1, ![128]⟩ : Shape).Idx → EReal) :
    (⟨3, ![32, 256, 128]⟩ : Shape).Idx → EReal :=
  fun i => outAt feat rbf idx mask W1 b1 W2 b2 (i 0) (i 1) (i 2)

theorem G_apply (feat : (⟨3, ![32, 256, 128]⟩ : Shape).Idx → EReal) (rbf : (⟨4, ![32, 256, 64, 64]⟩ : Shape).Idx → EReal)
    (idx : (⟨3, ![32, 256, 64]⟩ : Shape).Idx → BitVec 32) (mask : (⟨3, ![32, 256, 64]⟩ : Shape).Idx → EReal)
    (W1 : (⟨2, ![64, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (b : Fin 32) (n : Fin 256) (f : Fin 128) :
    G feat rbf idx mask W1 b1 W2 b2 (ix3 b n f) = outAt feat rbf idx mask W1 b1 W2 b2 b n f := rfl

end Cert.Spec

end
-- ==== Proof.KernelFilter.lean ====
/-
  The kernel's filter value at one row: rows of the 4096 × 64 matrix are the (atom, neighbour) pairs of a tile,
  row 64·r + k being neighbour k of atom r; the two products with the weight matrices are sums over the
  contracted axis, the bias is added along rows, and the activation between them is the shifted softplus.
-/
import proofs.«422019_j32882269618458_3_alg».proof.Proof.Gen.KernelIdeal.Skeleton
import proofs.«422019_j32882269618458_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Cert.KernelIdeal Cert.KernelIdeal.Gen Idealize.ShloMosaic Idealize.ShloMosaic.TcCoe Idealize.SL.Sem Idealize.ShloMosaic.ValueIdx

/-- Left operand of the product, axis 0: the result's row. -/
private theorem lhs_mm1_0 (i : S4096x128.Idx) (q : dot_S4096x64_S64x128_S4096x128_1_0_0_1_n_n.contr.Idx) :
    (dot_S4096x64_S64x128_S4096x128_1_0_0_1_n_n.lhsIdx i q 0).val = (i 0).val := by
  unfold DotDims.lhsIdx
  rw [dif_neg (show ¬(0 : Fin S4096x64.rank) ∈ dot_S4096x64_S64x128_S4096x128_1_0_0_1_n_n.lhsBatch by decide), dif_pos (show (0 : Fin S4096x64.rank) ∈ dot_S4096x64_S64x128_S4096x128_1_0_0_1_n_n.lhsNonContracting by decide)]
  rfl
/-- Left operand, axis 1: the contracted coordinate. -/
private theorem lhs_mm1_1 (i : S4096x128.Idx) (q : dot_S4096x64_S64x128_S4096x128_1_0_0_1_n_n.contr.Idx) :
    (dot_S4096x64_S64x128_S4096x128_1_0_0_1_n_n.lhsIdx i q 1).val = (q ⟨0, by decide⟩).val :=
  dot_S4096x64_S64x128_S4096x128_1_0_0_1_n_n.lhsIdx_val_of_single rfl i q
/-- Right operand, axis 0: the contracted coordinate. -/
private theorem rhs_mm1_0 (i : S4096x128.Idx) (q : dot_S4096x64_S64x128_S4096x128_1_0_0_1_n_n.contr.Idx) :
    (dot_S4096x64_S64x128_S4096x128_1_0_0_1_n_n.rhsIdx i q 0).val = (q ⟨0, by decide⟩).val :=
  dot_S4096x64_S64x128_S4096x128_1_0_0_1_n_n.rhsIdx_val_of_single rfl i q
/-- Right operand, axis 1: the result's column. -/
private theorem rhs_mm1_1 (i : S4096x128.Idx) (q : dot_S4096x64_S64x128_S4096x128_1_0_0_1_n_n.contr.Idx) :
    (dot_S4096x64_S64x128_S4096x128_1_0_0_1_n_n.rhsIdx i q 1).val = (i 1).val := by
  unfold DotDims.rhsIdx
  rw [dif_neg (show ¬(1 : Fin S64x128.rank) ∈ dot_S4096x64_S64x128_S4096x128_1_0_0_1_n_n.rhsBatch by decide), dif_pos (show (1 : Fin S64x128.rank) ∈ dot_S4096x64_S64x128_S4096x128_1_0_0_1_n_n.rhsNonContracting by decide)]
  rfl

/-- The product into a zero accumulator at (p, f): the sum over the contracted axis of left (p, g) times right (g, f). -/
private theorem mm1_apply (a : FVec Ideal S4096x64 .bf16) (b : FVec Ideal S64x128 .bf16) (p : Fin 4096) (f : Fin 128) :
    matmul dot_S4096x64_S64x128_S4096x128_1_0_0_1_n_n none a b (constant (F := Ideal) S4096x128 .f32 0x00000000#32) (ix2 p f)
      = ∑ g : Fin 64, a (ix2 p g) * b (ix2 g f) := by
  show FloatOps.matmul dot_S4096x64_S64x128_S4096x128_1_0_0_1_n_n none a b (constant (F := Ideal) S4096x128 .f32 0x00000000#32) (ix2 p f) = _
  rw [Ideal.matmul_constant_zero_apply, ← Equiv.sum_comp (ValueIdx.contrEquiv1 dot_S4096x64_S64x128_S4096x128_1_0_0_1_n_n 64 rfl rfl).symm]
  refine Finset.sum_congr rfl fun g _ => ?_
  have hk := ValueIdx.contrEquiv1_symm_val dot_S4096x64_S64x128_S4096x128_1_0_0_1_n_n 64 rfl rfl g
  have el : dot_S4096x64_S64x128_S4096x128_1_0_0_1_n_n.lhsIdx (ix2 p f) ((ValueIdx.contrEquiv1 dot_S4096x64_S64x128_S4096x128_1_0_0_1_n_n 64 rfl rfl).symm g) = ix2 p g := funext fun ax => Fin.ext (by
    match ax with
    | ⟨0, _⟩ => exact lhs_mm1_0 _ _
    | ⟨1, _⟩ => exact (lhs_mm1_1 _ _).trans hk)
  have er : dot_S4096x64_S64x128_S4096x128_1_0_0_1_n_n.rhsIdx (ix2 p f) ((ValueIdx.contrEquiv1 dot_S4096x64_S64x128_S4096x128_1_0_0_1_n_n 64 rfl rfl).symm g) = ix2 g f := funext fun ax => Fin.ext (by
    match ax with
    | ⟨0, _⟩ => exact (rhs_mm1_0 _ _).trans hk
    | ⟨1, _⟩ => exact rhs_mm1_1 _ _)
  rw [el, er]

/-- Left operand of the product, axis 0: the result's row. -/
private theorem lhs_mm2_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
/-- Left operand, axis 1: the contracted coordinate. -/
private theorem lhs_mm2_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
/-- Right operand, axis 0: the contracted coordinate. -/
private theorem rhs_mm2_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
/-- Right operand, axis 1: the result's column. -/
private theorem rhs_mm2_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The product into a zero accumulator at (p, f): the sum over the contracted axis of left (p, g) times right (g, f). -/
private theorem mm2_apply (a : FVec Ideal S4096x128 .bf16) (b : FVec Ideal S128x128 .bf16) (p : Fin 4096) (f : Fin 128) :
    matmul dot_S4096x128_S128x128_S4096x128_1_0_0_1_n_n none a b (constant (F := Ideal) S4096x128 .f32 0x00000000#32) (ix2 p f)
      = ∑ g : Fin 128, a (ix2 p g) * b (ix2 g f) := by
  show FloatOps.matmul dot_S4096x128_S128x128_S4096x128_1_0_0_1_n_n none a b (constant (F := Ideal) S4096x128 .f32 0x00000000#32) (ix2 p f) = _
  rw [Ideal.matmul_constant_zero_apply, ← Equiv.sum_comp (ValueIdx.contrEquiv1 dot_S4096x128_S128x128_S4096x128_1_0_0_1_n_n 128 rfl rfl).symm]
  refine Finset.sum_congr rfl fun g _ => ?_
  have hk := ValueIdx.contrEquiv1_symm_val dot_S4096x128_S128x128_S4096x128_1_0_0_1_n_n 128 rfl rfl g
  have el : dot_S4096x128_S128x128_S4096x128_1_0_0_1_n_n.lhsIdx (ix2 p f) ((ValueIdx.contrEquiv1 dot_S4096x128_S128x128_S4096x128_1_0_0_1_n_n 128 rfl rfl).symm g) = ix2 p g := funext fun ax => Fin.ext (by
    match ax with
    | ⟨0, _⟩ => exact lhs_mm2_0 _ _
    | ⟨1, _⟩ => exact (lhs_mm2_1 _ _).trans hk)
  have er : dot_S4096x128_S128x128_S4096x128_1_0_0_1_n_n.rhsIdx (ix2 p f) ((ValueIdx.contrEquiv1 dot_S4096x128_S128x128_S4096x128_1_0_0_1_n_n 128 rfl rfl).symm g) = ix2 g f := funext fun ax => Fin.ext (by
    match ax with
    | ⟨0, _⟩ => exact (rhs_mm2_0 _ _).trans hk
    | ⟨1, _⟩ => exact rhs_mm2_1 _ _)
  rw [el, er]

/-- Row `64·r + k` of the radial-basis block viewed as a 4096 × 64 matrix is the block's row (r, k). -/
private theorem rb_apply (v0 : FVec Ideal S1x64x64x64 .f32) (r k g : Fin 64) :
    shapeCast S4096x64 (shapeCast S64x64x64 v0 shapeCasts_S1x64x64x64_S64x64x64) shapeCasts_S64x64x64_S4096x64
        (ix2 (Cert.Spec.flat r k) g)
      = v0 (ix4 0 r k g) := by
  refine (shapeCast_apply _ shapeCasts_S64x64x64_S4096x64 (ix2 (Cert.Spec.flat r k) g) (ix3 r k g) ?_).trans ?_
  · rw [Shape.rowMajor_val_three, Shape.rowMajor_val_two]
    show (r.val * 64 + k.val) * 64 + g.val = (64 * r.val + k.val) * 64 + g.val
    omega
  · exact shapeCast_1abc_abc_apply v0 shapeCasts_S1x64x64x64_S64x64x64 r k g

/-- A bias vector broadcast along the rows reads its column's entry. -/
private theorem bias_apply (b : FVec Ideal S128 .f32) (p : Fin 4096) (f : Fin 128) :
    broadcastTo S4096x128 (shapeCast S1x128 b shapeCasts_S128_S1x128) broadcasts_S1x128_S4096x128 (ix2 p f) = b (ix1 f) :=
  (broadcastTo_1b_ab_apply _ broadcasts_S1x128_S4096x128 p f).trans (shapeCast_a_1a_apply b shapeCasts_S128_S1x128 0 f)

/-- The first layer before the activation, as the kernel forms it. -/
private def pre (v0 : FVec Ideal S1x64x64x64 .f32) (v4 : FVec Ideal S64x128 .bf16) (v7 : FVec Ideal S128 .f32) : FVec Ideal S4096x128 .f32 :=
  addf (matmul dot_S4096x64_S64x128_S4096x128_1_0_0_1_n_n none
      (truncf .bf16 (shapeCast S4096x64 (shapeCast S64x64x64 v0 shapeCasts_S1x64x64x64_S64x64x64) shapeCasts_S64x64x64_S4096x64) bitsLt_bf16_f32)
      (shapeCast S64x128 v4 shapeCasts_S64x128_S64x128) (constant (F := Ideal) S4096x128 .f32 0x00000000#32))
    (broadcastTo S4096x128 (shapeCast S1x128 v7 shapeCasts_S128_S1x128) broadcasts_S1x128_S4096x128)

/-- The first layer at row (r, k), hidden channel f'. -/
private theorem pre_apply (v0 : FVec Ideal S1x64x64x64 .f32) (v4 : FVec Ideal S64x128 .bf16) (v7 : FVec Ideal S128 .f32)
    (r k : Fin 64) (f' : Fin 128) :
    pre v0 v4 v7 (ix2 (Cert.Spec.flat r k) f') = Cert.Spec.hidRow (fun g => v0 (ix4 0 r k g)) v4 v7 f' := by
  unfold pre Cert.Spec.hidRow
  rw [addf_apply, mm1_apply, bias_apply, shapeCast_self]
  refine congrArg (· + v7 (ix1 f')) (Finset.sum_congr rfl fun g _ => ?_)
  rw [truncf_apply, rb_apply]

/-- The activation as the kernel spells it: max(x, 0) + log1p(exp(0 − |x − 0|)), kept unless x − 0 differs from
    itself, minus the constant. -/
private def act (X : FVec Ideal S4096x128 .f32) : FVec Ideal S4096x128 .f32 :=
  subf
    (select (cmpf .one (subf X (broadcast S4096x128 (Scalar.ofBits .f32 0x00000000#32))) (subf X (broadcast S4096x128 (Scalar.ofBits .f32 0x00000000#32))))
      (addf X (broadcast S4096x128 (Scalar.ofBits .f32 0x00000000#32)))
      (addf (maximumf X (broadcast S4096x128 (Scalar.ofBits .f32 0x00000000#32)))
        (log1p (exp (subf (broadcast S4096x128 (Scalar.ofBits .f32 0x00000000#32))
          (absf (subf X (broadcast S4096x128 (Scalar.ofBits .f32 0x00000000#32)))))))))
    (broadcast S4096x128 (Scalar.ofBits .f32 0x3F317218#32))

/-- No extended real differs from itself, so the guarded branch is never taken; and 0 − m = −m. -/
private theorem ssp_eq (x : EReal) :
    Scalar.select (Ideal.cmp .one (x - Cert.Spec.zeroW) (x - Cert.Spec.zeroW)) (x + Cert.Spec.zeroW)
        (max x Cert.Spec.zeroW + Ideal.log1p (Ideal.exp (Cert.Spec.zeroW - max (x - Cert.Spec.zeroW) (-(x - Cert.Spec.zeroW)))))
      - Cert.Spec.ln2W = Cert.Spec.ssp x := by
  have hc : Ideal.cmp .one (x - Cert.Spec.zeroW) (x - Cert.Spec.zeroW) = 0#1 := by
    simp [Ideal.cmp]
  have hz : ∀ m : EReal, Cert.Spec.zeroW - m = -m := fun m => by
    rw [show Cert.Spec.zeroW = 0 from Ideal.ofBits_zero_f32, zero_sub]
  rw [hc, select_zero, hz]
  rfl

/-- The activation at an element is the shifted softplus of that element. -/
private theorem act_apply (X : FVec Ideal S4096x128 .f32) (i : S4096x128.Idx) : act X i = Cert.Spec.ssp (X i) :=
  ssp_eq (X i)

/-- The payload is the second layer applied to the activation of the first. -/
private theorem pay2_eq (v0 : FVec Ideal S1x64x64x64 .f32) (v4 : FVec Ideal S64x128 .bf16) (v7 : FVec Ideal S128 .f32)
    (v28 : FVec Ideal S128x128 .bf16) (v31 : FVec Ideal S128 .f32) :
    k0_pay2 (F := Ideal) v0 v4 v7 v28 v31
      = addf (matmul dot_S4096x128_S128x128_S4096x128_1_0_0_1_n_n none
            (truncf .bf16 (act (pre v0 v4 v7)) bitsLt_bf16_f32)
            (shapeCast S128x128 v28 shapeCasts_S128x128_S128x128) (constant (F := Ideal) S4096x128 .f32 0x00000000#32))
          (broadcastTo S4096x128 (shapeCast S1x128 v31 shapeCasts_S128_S1x128) broadcasts_S1x128_S4096x128) := rfl

/-- The filter payload at row `64·r + k`, column `f`: the two-layer perceptron of the radial-basis row (r, k). -/
theorem pay2_apply (v0 : Vec Ideal S1x64x64x64 .f32) (v4 : Vec Ideal S64x128 .bf16) (v7 : Vec Ideal S128 .f32)
    (v28 : Vec Ideal S128x128 .bf16) (v31 : Vec Ideal S128 .f32) (r k : Fin 64) (f : Fin 128) :
    k0_pay2 (F := Ideal) v0 v4 v7 v28 v31 (ix2 (Cert.Spec.flat r k) f)
      = Cert.Spec.filtRow (fun g => v0 (ix4 0 r k g)) v4 v7 v28 v31 f := by
  rw [pay2_eq]
  unfold Cert.Spec.filtRow
  rw [addf_apply, mm2_apply, bias_apply, shapeCast_self]
  refine congrArg (· + v31 (ix1 f)) (Finset.sum_congr rfl fun f' _ => ?_)
  rw [truncf_apply, act_apply, pre_apply]

end Cert.KernelIdeal.Bridge

end
-- ==== Proof.KernelGather.lean ====
/-
  The kernel's aggregate at one output element, given the filter matrix: the one-hot product with the feature
  table selects the neighbour's row (the second product, with feat − feat, adds zero because the features are
  finite), and the sum over the neighbour axis of (row · filter) · mask follows.
-/
import proofs.«422019_j32882269618458_3_alg».proof.Proof.Gen.KernelIdeal.Skeleton
import proofs.«422019_j32882269618458_3_alg».proof.Proof.Spec
import Idealize.ShloMosaic.Lib.ValueIdx
import Idealize.ShloMosaic.Lib.Pipeline.Value
import Idealize.ShloMosaic.PureOps.Ideal.Laws

noncomputable section

namespace Cert.KernelIdeal.Bridge

open Cert.KernelIdeal Cert.KernelIdeal.Gen Idealize.ShloMosaic Idealize.ShloMosaic.TcCoe Idealize.SL.Sem Idealize.ShloMosaic.ValueIdx

/-- The one-hot entry for index word `w` at table row `n`: 1 where the word of `n` is `w`, else 0. -/
private def hot (w : BitVec 32) (n : Fin 256) : EReal := if BitVec.ofNat 32 n.val = w then 1 else 0

/-- For an in-range word, the word of `n` is `w` exactly at the row `w` names. -/
private theorem ofNat_eq_iff (w : BitVec 32) (hw : w.toNat < 256) (n : Fin 256) :
    BitVec.ofNat 32 n.val = w ↔ n = Cert.Spec.row w := by
  have hn := n.isLt
  constructor
  · intro h
    apply Fin.ext
    rw [Cert.Spec.row_val_of_lt hw, ← h, BitVec.toNat_ofNat]
    exact (Nat.mod_eq_of_lt (by omega)).symm
  · intro h
    apply BitVec.eq_of_toNat_eq
    rw [BitVec.toNat_ofNat, h, Cert.Spec.row_val_of_lt hw]
    exact Nat.mod_eq_of_lt (by omega)

/-- The one-hot row times a column selects the column's entry at the row the word names. -/
private theorem sum_hot_mul (w : BitVec 32) (hw : w.toNat < 256) (g : Fin 256 → EReal) :
    ∑ n : Fin 256, hot w n * g n = g (Cert.Spec.row w) := by
  rw [Finset.sum_eq_single (Cert.Spec.row w)]
  · rw [hot, if_pos ((ofNat_eq_iff w hw _).2 rfl), one_mul]
  · intro n _ hn
    rw [hot, if_neg (fun h => hn ((ofNat_eq_iff w hw n).1 h)), zero_mul]
  · intro h; exact absurd (Finset.mem_univ _) h

/-- The one-hot row times the difference of a real column with itself is zero. -/
private theorem sum_hot_mul_sub_self (w : BitVec 32) (g : Fin 256 → EReal) (hg : ∀ n, ∃ x : ℝ, g n = (x : EReal)) :
    ∑ n : Fin 256, hot w n * (g n - g n) = 0 := by
  refine Finset.sum_eq_zero fun n _ => ?_
  obtain ⟨x, hx⟩ := hg n
  rw [hx, ← EReal.coe_sub, sub_self, EReal.coe_zero, mul_zero]

/-- The feature block with its leading unit axis dropped. -/
theorem pay3_apply (v35 : Vec Ideal S1x256x128 .f32) (n : Fin 256) (f : Fin 128) :
    k0_pay3 (F := Ideal) v35 (ix2 n f) = v35 (ix3 0 n f) := by
  show shapeCast S256x128 v35 shapeCasts_S1x256x128_S256x128 (ix2 n f) = v35 (ix3 0 n f)
  exact shapeCast_apply v35 _ _ _ (by
    rw [Shape.rowMajor_val_three, Shape.rowMajor_val_two]
    show (0 * 256 + n.val) * 128 + f.val = n.val * 128 + f.val
    omega)

/-- The one-hot matrix: row `64·r + k`, column `n`. -/
private def hotMat (v37 : Vec Ideal S1x64x64 .i32) : FVec Ideal S4096x256 .bf16 :=
  shapeCast S4096x256
    (truncf .bf16 (sitofp (F := Ideal) .f32 (extui 32 (cmpi .eq (iota .tc S64x64x256 32 [2] iota_S64x64x256_d2_w32)
      (broadcastTo S64x64x256 (shapeCast S64x64x1 (shapeCast S64x64 v37 shapeCasts_S1x64x64_S64x64) shapeCasts_S64x64_S64x64x1)
        broadcasts_S64x64x1_S64x64x256)) natLt_1_32)) bitsLt_bf16_f32)
    shapeCasts_S64x64x256_S4096x256

/-- The gathered feature rows: the sum of the two one-hot products. -/
private def gathered (v36 : FVec Ideal S256x128 .f32) (v37 : Vec Ideal S1x64x64 .i32) : FVec Ideal S4096x128 .f32 :=
  addf (matmul dot_S4096x256_S256x128_S4096x128_1_0_0_1_n_n none (hotMat v37) (truncf .bf16 v36 bitsLt_bf16_f32) (constant (F := Ideal) S4096x128 .f32 0x00000000#32))
       (matmul dot_S4096x256_S256x128_S4096x128_1_0_0_1_n_n none (hotMat v37) (truncf .bf16 (subf v36 v36) bitsLt_bf16_f32) (constant (F := Ideal) S4096x128 .f32 0x00000000#32))

/-- The stored value over the named pieces: gathered rows times the filter, recast to atoms × neighbours × channels,
    times the broadcast mask, summed over the neighbour axis. -/
private theorem pay1_eq (v34 : FVec Ideal S4096x128 .f32) (v36 : FVec Ideal S256x128 .f32) (v37 : Vec Ideal S1x64x64 .i32)
    (v56 : Vec Ideal S1x64x64 .f32) :
    k0_pay1 (F := Ideal) v34 v36 v37 v56
      = shapeCast S1x64x128
          (multiReduction .add [1] S64x128
            (mulf (shapeCast S64x64x128 (mulf (gathered v36 v37) v34) shapeCasts_S4096x128_S64x64x128)
              (broadcastTo S64x64x128 (shapeCast S64x64x1 (shapeCast S64x64 v56 shapeCasts_S1x64x64_S64x64) shapeCasts_S64x64_S64x64x1)
                broadcasts_S64x64x1_S64x64x128))
            0x00000000#32 reduces_S64x64x128_S64x128 (.inl rfl) rfl)
          shapeCasts_S64x128_S1x64x128 := rfl

/-- A compared, widened, converted pair of words is 1 where they agree and 0 where they differ. -/
private theorem hot_entry {s : Shape} (I B : IVec s 32) (i : s.Idx) :
    (truncf .bf16 (sitofp (F := Ideal) .f32 (extui 32 (cmpi .eq I B) natLt_1_32)) bitsLt_bf16_f32 : FVec Ideal s .bf16) i
      = if I i = B i then 1 else 0 := by
  show ((((BitVec.ofBool (I i == B i)).setWidth 32).toInt : ℝ) : EReal) = _
  by_cases h : I i = B i
  · have hb : BitVec.ofBool (I i == B i) = 1#1 := by simp [h]
    have h1 : ((1#1 : BitVec 1).setWidth 32).toInt = 1 := by decide
    rw [if_pos h, hb, h1]
    simp
  · have hb : BitVec.ofBool (I i == B i) = 0#1 := by rw [beq_eq_false_iff_ne.2 h]; rfl
    have h0 : ((0#1 : BitVec 1).setWidth 32).toInt = 0 := by decide
    rw [if_neg h, hb, h0]
    simp

/-- The one-hot matrix at row `64·r + k`, column `n`. -/
private theorem hotMat_apply (v37 : Vec Ideal S1x64x64 .i32) (r k : Fin 64) (n : Fin 256) :
    hotMat v37 (ix2 (Cert.Spec.flat r k) n) = hot (v37 (ix3 0 r k)) n := by
  unfold hotMat
  refine (shapeCast_apply _ shapeCasts_S64x64x256_S4096x256 (ix2 (Cert.Spec.flat r k) n) (ix3 r k n) ?_).trans ?_
  · rw [Shape.rowMajor_val_three, Shape.rowMajor_val_two]
    show (r.val * 64 + k.val) * 256 + n.val = (64 * r.val + k.val) * 256 + n.val
    omega
  · refine (hot_entry _ _ _).trans ?_
    have hi : iota .tc S64x64x256 32 [2] iota_S64x64x256_d2_w32 (ix3 r k n) = BitVec.ofNat 32 n.val :=
      iota_single_apply .tc S64x64x256 32 2 iota_S64x64x256_d2_w32 (ix3 r k n)
    have hb : broadcastTo S64x64x256 (shapeCast S64x64x1 (shapeCast S64x64 v37 shapeCasts_S1x64x64_S64x64) shapeCasts_S64x64_S64x64x1)
        broadcasts_S64x64x1_S64x64x256 (ix3 r k n) = v37 (ix3 0 r k) := by
      refine (broadcastTo_apply _ broadcasts_S64x64x1_S64x64x256 (ix3 r k n) (ix3 r k (0 : Fin 1)) fun a => ?_).trans ?_
      · match a with
        | ⟨0, _⟩ => rfl
        | ⟨1, _⟩ => rfl
        | ⟨2, _⟩ => rfl
      · refine (shapeCast_apply _ shapeCasts_S64x64_S64x64x1 (ix3 r k (0 : Fin 1)) (ix2 r k) ?_).trans ?_
        · rw [Shape.rowMajor_val_three, Shape.rowMajor_val_two]
          show r.val * 64 + k.val = (r.val * 64 + k.val) * 1 + 0
          omega
        · exact shapeCast_apply v37 shapeCasts_S1x64x64_S64x64 (ix2 r k) (ix3 0 r k) (by
            rw [Shape.rowMajor_val_three, Shape.rowMajor_val_two]
            show (0 * 64 + r.val) * 64 + k.val = r.val * 64 + k.val
            omega)
    rw [hi, hb]
    rfl

/-! The product's operand indices, axis by axis. -/

private theorem lhs_gather_0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
private theorem lhs_gather_1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
private theorem rhs_gather_0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
private theorem rhs_gather_1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

/-- The product into the zero accumulator, at row `p`, channel `f`: the sum over the 256 table rows. -/
private theorem matmul_zero_apply (A : FVec Ideal S4096x256 .bf16) (B : FVec Ideal S256x128 .bf16) (p : Fin 4096) (f : Fin 128) :
    matmul dot_S4096x256_S256x128_S4096x128_1_0_0_1_n_n none A B (constant (F := Ideal) S4096x128 .f32 0x00000000#32) (ix2 p f)
      = ∑ n : Fin 256, A (ix2 p n) * B (ix2 n f) := by
  refine (Ideal.matmul_constant_zero_apply dot_S4096x256_S256x128_S4096x128_1_0_0_1_n_n none A B (ix2 p f)).trans ?_
  rw [← Equiv.sum_comp (ValueIdx.contrEquiv1 dot_S4096x256_S256x128_S4096x128_1_0_0_1_n_n 256 rfl rfl).symm]
  refine Finset.sum_congr rfl fun k _ => ?_
  have hk := ValueIdx.contrEquiv1_symm_val dot_S4096x256_S256x128_S4096x128_1_0_0_1_n_n 256 rfl rfl k
  have el : dot_S4096x256_S256x128_S4096x128_1_0_0_1_n_n.lhsIdx (ix2 p f) ((ValueIdx.contrEquiv1 dot_S4096x256_S256x128_S4096x128_1_0_0_1_n_n 256 rfl rfl).symm k) = ix2 p k := funext fun a => Fin.ext (by
    match a with
    | ⟨0, _⟩ => exact lhs_gather_0 _ _
    | ⟨1, _⟩ => exact (lhs_gather_1 _ _).trans hk)
  have er : dot_S4096x256_S256x128_S4096x128_1_0_0_1_n_n.rhsIdx (ix2 p f) ((ValueIdx.contrEquiv1 dot_S4096x256_S256x128_S4096x128_1_0_0_1_n_n 256 rfl rfl).symm k) = ix2 k f := funext fun a => Fin.ext (by
    match a with
    | ⟨0, _⟩ => exact (rhs_gather_0 _ _).trans hk
    | ⟨1, _⟩ => exact rhs_gather_1 _ _)
  rw [el, er]

/-- The gathered matrix at row `64·r + k`, channel `f`: the feature row the neighbour word names. -/
private theorem gathered_apply (v36 : FVec Ideal S256x128 .f32) (v37 : Vec Ideal S1x64x64 .i32)
    (hfin : ∀ j, ∃ x : ℝ, v36 j = (x : EReal)) (hidx : ∀ j, (v37 j).toNat < 256) (r k : Fin 64) (f : Fin 128) :
    gathered v36 v37 (ix2 (Cert.Spec.flat r k) f) = v36 (ix2 (Cert.Spec.row (v37 (ix3 0 r k))) f) := by
  unfold gathered
  rw [addf_apply, matmul_zero_apply, matmul_zero_apply]
  have h1 : ∑ n : Fin 256, hotMat v37 (ix2 (Cert.Spec.flat r k) n) * (truncf .bf16 v36 bitsLt_bf16_f32 : FVec Ideal S256x128 .bf16) (ix2 n f)
      = ∑ n : Fin 256, hot (v37 (ix3 0 r k)) n * (fun n => v36 (ix2 n f)) n :=
    Finset.sum_congr rfl fun n _ => by rw [hotMat_apply]; rfl
  have h2 : ∑ n : Fin 256, hotMat v37 (ix2 (Cert.Spec.flat r k) n) * (truncf .bf16 (subf v36 v36) bitsLt_bf16_f32 : FVec Ideal S256x128 .bf16) (ix2 n f)
      = ∑ n : Fin 256, hot (v37 (ix3 0 r k)) n * ((fun n => v36 (ix2 n f)) n - (fun n => v36 (ix2 n f)) n) :=
    Finset.sum_congr rfl fun n _ => by rw [hotMat_apply]; rfl
  rw [h1, h2, sum_hot_mul _ (hidx _), sum_hot_mul_sub_self _ _ (fun n => hfin _), add_zero]

/-- The stored value at atom `r`, channel `f`, for ANY filter matrix `v34`, finite features and in-range indices. -/
theorem pay1_apply (v34 : FVec Ideal S4096x128 .f32) (v36 : FVec Ideal S256x128 .f32) (v37 : Vec Ideal S1x64x64 .i32)
    (v56 : Vec Ideal S1x64x64 .f32) (hfin : ∀ j, ∃ x : ℝ, v36 j = (x : EReal)) (hidx : ∀ j, (v37 j).toNat < 256)
    (r : Fin 64) (f : Fin 128) :
    k0_pay1 (F := Ideal) v34 v36 v37 v56 (ix3 0 r f)
      = Cert.Spec.outElt (fun n => v36 (ix2 n f)) (fun k => v37 (ix3 0 r k))
          (fun k => v34 (ix2 (Cert.Spec.flat r k) f)) (fun k => v56 (ix3 0 r k)) := by
  rw [pay1_eq]
  refine (shapeCast_apply _ shapeCasts_S64x128_S1x64x128 (ix3 0 r f) (ix2 r f) ?_).trans ?_
  · rw [Shape.rowMajor_val_three, Shape.rowMajor_val_two]
    show r.val * 128 + f.val = (0 * 64 + r.val) * 128 + f.val
    omega
  refine (Ideal.multiReduction_add_single _ 0x00000000#32 reduces_S64x64x128_S64x128 (.inl rfl) rfl (ix2 r f)).trans ?_
  unfold Cert.Spec.outElt
  refine Finset.sum_congr rfl fun (k : Fin 64) _ => ?_
  have hl : reduces_S64x64x128_S64x128.lift (ix2 r f) k = ix3 r k f := funext fun a => Fin.ext (by
    match a with
    | ⟨0, _⟩ => rfl
    | ⟨1, _⟩ => rfl
    | ⟨2, _⟩ => rfl)
  rw [hl, mulf_apply]
  have e1 : shapeCast S64x64x128 (mulf (gathered v36 v37) v34) shapeCasts_S4096x128_S64x64x128 (ix3 r k f)
      = v36 (ix2 (Cert.Spec.row (v37 (ix3 0 r k))) f) * v34 (ix2 (Cert.Spec.flat r k) f) := by
    refine (shapeCast_apply _ shapeCasts_S4096x128_S64x64x128 (ix3 r k f) (ix2 (Cert.Spec.flat r k) f) ?_).trans ?_
    · rw [Shape.rowMajor_val_three, Shape.rowMajor_val_two]
      show (64 * r.val + k.val) * 128 + f.val = (r.val * 64 + k.val) * 128 + f.val
      omega
    · rw [mulf_apply, gathered_apply v36 v37 hfin hidx]
  have e2 : broadcastTo S64x64x128 (shapeCast S64x64x1 (shapeCast S64x64 v56 shapeCasts_S1x64x64_S64x64) shapeCasts_S64x64_S64x64x1)
      broadcasts_S64x64x1_S64x64x128 (ix3 r k f) = v56 (ix3 0 r k) := by
    refine (broadcastTo_apply _ broadcasts_S64x64x1_S64x64x128 (ix3 r k f) (ix3 r k (0 : Fin 1)) fun a => ?_).trans ?_
    · match a with
      | ⟨0, _⟩ => rfl
      | ⟨1, _⟩ => rfl
      | ⟨2, _⟩ => rfl
    · refine (shapeCast_apply _ shapeCasts_S64x64_S64x64x1 (ix3 r k (0 : Fin 1)) (ix2 r k) ?_).trans ?_
      · rw [Shape.rowMajor_val_three, Shape.rowMajor_val_two]
        show r.val * 64 + k.val = (r.val * 64 + k.val) * 1 + 0
        omega
      · exact shapeCast_apply v56 shapeCasts_S1x64x64_S64x64 (ix2 r k) (ix3 0 r k) (by
          rw [Shape.rowMajor_val_three, Shape.rowMajor_val_two]
          show (0 * 64 + r.val) * 64 + k.val = r.val * 64 + k.val
          omega)
  rw [e1, e2]

end Cert.KernelIdeal.Bridge

end
-- ==== Proof.KernelBody.lean ====
/-
  The body's stored block, element by element, from the input blocks: the aggregate over the filter the same
  body computes.
-/
import proofs.«422019_j32882269618458_3_alg».proof.Proof.KernelFilter
import proofs.«422019_j32882269618458_3_alg».proof.Proof.KernelGather

noncomputable section

namespace Cert.KernelIdeal.Bridge

open Cert.KernelIdeal Cert.KernelIdeal.Gen Idealize.ShloMosaic Idealize.ShloMosaic.TcCoe Idealize.SL.Sem Idealize.ShloMosaic.ValueIdx

/-- Element (0, r, f) of what the body stores, from its eight input blocks. -/
theorem body_apply (x0 : Vec Ideal S1x64x64x64 .f32) (x1 : Vec Ideal S1x256x128 .f32) (x2 : Vec Ideal S1x64x64 .i32)
    (x3 : Vec Ideal S1x64x64 .f32) (x4 : Vec Ideal S64x128 .bf16) (x5 : Vec Ideal S128 .f32) (x6 : Vec Ideal S128x128 .bf16)
    (x7 : Vec Ideal S128 .f32) (hfin : ∀ j, ∃ x : ℝ, x1 j = (x : EReal)) (hidx : ∀ j, (x2 j).toNat < 256)
    (r : Fin 64) (f : Fin 128) :
    k0_pay1 (F := Ideal) (k0_pay2 x0 x4 x5 x6 x7) (k0_pay3 x1) x2 x3 (ix3 0 r f)
      = Cert.Spec.outElt (fun n => x1 (ix3 0 n f)) (fun k => x2 (ix3 0 r k))
          (fun k => Cert.Spec.filtRow (fun g => x0 (ix4 0 r k g)) x4 x5 x6 x7 f) (fun k => x3 (ix3 0 r k)) := by
  rw [pay1_apply _ _ _ _ (fun j => by
    obtain ⟨n, f', rfl⟩ : ∃ (n : Fin 256) (f' : Fin 128), j = ix2 n f' := ⟨j 0, j 1, eq_ix2 j⟩
    rw [pay3_apply]; exact hfin _) hidx]
  simp only [pay3_apply, pay2_apply]

end Cert.KernelIdeal.Bridge

end
-- ==== Proof.HostPrefix.lean ====
/-
  What the region finds in the three arrays the host writes before it: the neighbour indices clipped to [0, 255]
  (the clip is the identity on indices already in that range) and the two weight matrices after a change of float
  format (the identity over the extended reals).
-/
import proofs.«422019_j32882269618458_3_alg».proof.Proof.Gen.KernelIdeal.Frame
import Idealize.ShloMosaic.Lib.StableHlo.Run
import Idealize.ShloMosaic.Lib.StableHlo.Predicate
import Idealize.ShloMosaic.Lib.ValueIdx
import Idealize.ShloMosaic.Lib.Pipeline.Value

noncomputable section

namespace Cert.KernelIdeal.Bridge

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- A word in [0, 255] is left alone by the signed clamp to [0, 255] written as min(255, max(0, w)):
    such a word reads the same signed and unsigned, so neither signed comparison (w < 0, 255 < w) holds. -/
private theorem clip_word (w : BitVec 32) (hw : w.toNat < 256) :
    IntOp.minsi 255#32 (IntOp.maxsi 0#32 w) = w := by
  have hti : w.toInt = w.toNat := StableHlo.Predicate.toInt_eq_toNat_of_lt (by omega)
  have h0 : (0#32 : BitVec 32).toInt = 0 := by decide
  have h255 : (255#32 : BitVec 32).toInt = 255 := by decide
  -- max(0, w) picks 0 only when w < 0 (signed), which a non-negative w is not
  have hmax : IntOp.maxsi 0#32 w = w := by
    unfold IntOp.maxsi
    rw [if_neg]
    simp only [BitVec.slt, hti, h0, decide_eq_true_eq]; omega
  rw [hmax]
  -- min(255, w) picks 255 only when 255 < w (signed), which w ≤ 255 excludes
  unfold IntOp.minsi
  rw [if_neg]
  simp only [BitVec.slt, hti, h255, decide_eq_true_eq]; omega

/-- The clipped index array, at an index whose word is already in [0, 255], is the argument's word. -/
theorem V_main_v0_apply (c : Dev nD) (j : S32x256x64.Idx) (h : (m ((c : Thread nD τ).loc main_arg2) j).toNat < 256) :
    (V m c main_v0 : S32x256x64.Idx → BitVec 32) j = m ((c : Thread nD τ).loc main_arg2) j := by
  -- the array is min(broadcast 255, max(broadcast 0, indices)), entry by entry
  have e : (V m c main_v0 : S32x256x64.Idx → BitVec 32) =
      minsi (broadcastInDim S32x256x64 ![] bcast_S_S32x256x64 (constantI S_ 32 255#32))
        (maxsi (broadcastInDim S32x256x64 ![] bcast_S_S32x256x64 (constantI S_ 32 0#32))
          (m ((c : Thread nD τ).loc main_arg2))) := by
    dsimp only [Gen.V]
    simp only [Gen.hostOps0, Gen.hostOps0_1, Gen.hostOps0_2, List.flatten_cons, List.flatten_nil, List.append_nil,
      List.cons_append, List.nil_append]
    after_results
    simp only [StableHlo.TRef.ofBuf, StableHlo.TRef.toBuf, cast_eq]
    rfl
  refine (congrFun e j).trans ?_
  -- a broadcast scalar reads the scalar at every index; min and max act on each entry's word
  show IntOp.minsi 255#32 (IntOp.maxsi 0#32 (m ((c : Thread nD τ).loc main_arg2) j)) = _
  exact clip_word _ h

/-- The first weight matrix after its change of format is the argument, entry by entry. -/
theorem V_main_v1_eq (c : Dev nD) :
    (V m c main_v1 : S64x128.Idx → EReal) = (m ((c : Thread nD τ).loc main_arg4) : S64x128.Idx → EReal) := by
  dsimp only [Gen.V]
  simp only [Gen.hostOps0, Gen.hostOps0_1, Gen.hostOps0_2, List.flatten_cons, List.flatten_nil, List.append_nil,
    List.cons_append, List.nil_append]
  after_results
  -- narrowing the float format is the identity over the extended reals
  rfl

/-- The second weight matrix likewise. -/
theorem V_main_v2_eq (c : Dev nD) :
    (V m c main_v2 : S128x128.Idx → EReal) = (m ((c : Thread nD τ).loc main_arg6) : S128x128.Idx → EReal) := by
  dsimp only [Gen.V]
  simp only [Gen.hostOps0, Gen.hostOps0_1, Gen.hostOps0_2, List.flatten_cons, List.flatten_nil, List.append_nil,
    List.cons_append, List.nil_append]
  after_results
  -- narrowing the float format is the identity over the extended reals
  rfl

end Cert.KernelIdeal.Bridge

end
-- ==== Proof.Blocks.lean ====
/-
  From blocks to the array: grid point t = (b, q) stores the 64 × 128 tile of atoms 64·q … 64·q + 63 of batch b, the
  128 tiles are disjoint and cover the 32 × 256 × 128 result, and each tile is the specification read on that tile.
-/
import proofs.«422019_j32882269618458_3_alg».proof.Proof.Gen.KernelIdeal.Value
import proofs.«422019_j32882269618458_3_alg».proof.Proof.KernelBody
import proofs.«422019_j32882269618458_3_alg».proof.Proof.HostPrefix

noncomputable section

namespace Cert.KernelIdeal.Bridge

open Cert.KernelIdeal Cert.KernelIdeal.Gen Idealize.ShloMosaic Idealize.ShloMosaic.TcCoe Idealize.SL.Sem Idealize.ShloMosaic.ValueIdx Cert.KernelIdeal.Value

open Idealize.ShloMosaic.Pipeline (Dat)

variable (m : (ℓ : Loc nD τ sig) → Buf (Elt Ideal) ℓ)

/-- The zero offsets of a whole-block rectangle, at ranks 4, 3, 2 and 1, as constant functions. -/
private theorem hz4 : (![0, 0, 0, 0] : Fin 4 → Nat) = fun _ => 0 := funext fun a => by fin_cases a <;> rfl
private theorem hz3 : (![0, 0, 0] : Fin 3 → Nat) = fun _ => 0 := funext fun a => by fin_cases a <;> rfl
private theorem hz2 : (![0, 0] : Fin 2 → Nat) = fun _ => 0 := funext fun a => by fin_cases a <;> rfl
private theorem hz1 : (![0] : Fin 1 → Nat) = fun _ => 0 := funext fun a => by fin_cases a <;> rfl

/-- The index maps over the grid: the radial-basis, neighbour and mask tiles move with the result's tile (batch b, atom
    block q), the feature table moves with the batch only, the weights and biases stay whole, and (b, q) ranges in 32 × 4. -/
private theorem tile_index : ∀ t : Fin cfg0.N,
    win0_0.index t (0 : Fin 4) = win0_8.index t (0 : Fin 3) ∧ win0_0.index t (1 : Fin 4) = win0_8.index t (1 : Fin 3)
    ∧ win0_0.index t (2 : Fin 4) = 0 ∧ win0_0.index t (3 : Fin 4) = 0
    ∧ win0_1.index t (0 : Fin 3) = win0_8.index t (0 : Fin 3) ∧ win0_1.index t (1 : Fin 3) = 0 ∧ win0_1.index t (2 : Fin 3) = 0
    ∧ win0_2.index t (0 : Fin 3) = win0_8.index t (0 : Fin 3) ∧ win0_2.index t (1 : Fin 3) = win0_8.index t (1 : Fin 3) ∧ win0_2.index t (2 : Fin 3) = 0
    ∧ win0_3.index t (0 : Fin 3) = win0_8.index t (0 : Fin 3) ∧ win0_3.index t (1 : Fin 3) = win0_8.index t (1 : Fin 3) ∧ win0_3.index t (2 : Fin 3) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 3) ≤ 31 ∧ win0_8.index t (1 : Fin 3) ≤ 3 ∧ win0_8.index t (2 : Fin 3) = 0 :=
  (by decide +kernel : ∀ t : Fin grid0.N, _)

/-- Every (batch, atom block) is some grid point's tile. -/
private theorem tile_onto : ∀ (b : Fin 32) (q : Fin 4), ∃ t : Fin cfg0.N, win0_8.index t = ![b.val, q.val, 0] :=
  (by decide +kernel : ∀ (b : Fin 32) (q : Fin 4), ∃ t : Fin grid0.N, win0_8.index t = ![b.val, q.val, 0])

/-- The tile of the radial-basis array at grid point t. -/
private abbrev rbfBlk (c : Dev nD) (t : Fin cfg0.N) : Vec Ideal S1x64x64x64 .f32 := iblk m c 0 t
/-- The batch's whole feature table at grid point t. -/
private abbrev featBlk (c : Dev nD) (t : Fin cfg0.N) : Vec Ideal S1x256x128 .f32 := iblk m c 1 t
/-- The tile of the clipped neighbour indices at grid point t. -/
private abbrev nbrBlk (c : Dev nD) (t : Fin cfg0.N) : Vec Ideal S1x64x64 .i32 := iblk m c 2 t
/-- The tile of the mask at grid point t. -/
private abbrev mskBlk (c : Dev nD) (t : Fin cfg0.N) : Vec Ideal S1x64x64 .f32 := iblk m c 3 t
/-- The first weight matrix, whole, at grid point t. -/
private abbrev w1Blk (c : Dev nD) (t : Fin cfg0.N) : Vec Ideal S64x128 .bf16 := iblk m c 4 t
/-- The first bias, whole. -/
private abbrev b1Blk (c : Dev nD) (t : Fin cfg0.N) : Vec Ideal S128 .f32 := iblk m c 5 t
/-- The second weight matrix, whole. -/
private abbrev w2Blk (c : Dev nD) (t : Fin cfg0.N) : Vec Ideal S128x128 .bf16 := iblk m c 6 t
/-- The second bias, whole. -/
private abbrev b2Blk (c : Dev nD) (t : Fin cfg0.N) : Vec Ideal S128 .f32 := iblk m c 7 t

/-- Entry (r, k, g) of the radial-basis tile is the array's entry at batch b, atom n = 64·q + r. -/
private theorem rbfBlk_apply (c : Dev nD) (t : Fin cfg0.N) (r k g : Fin 64) (b : Fin 32) (n : Fin 256)
    (hb : b.val = win0_8.index t (0 : Fin 3)) (hn : n.val = win0_8.index t (1 : Fin 3) * 64 + r.val) :
    rbfBlk m c t (ix4 0 r k g) = (m ((c : Thread nD τ).loc main_arg1) : S32x256x64x64.Idx → EReal) (ix4 b n k g) := by
  obtain ⟨e0, e1, e2, e3, -⟩ := tile_index t
  show V m c main_arg1 (((cfg0.win 0).blk t).view.emb (ix4 0 r k g)) = _
  rw [V_main_arg1]
  refine congrArg _ ?_
  funext a; apply Fin.ext
  match a with
  | ⟨0, _⟩ => show win0_0.index t (0 : Fin 4) * 1 + 1 * (0 : Fin 1).val = b.val; rw [e0, hb]; simp
  | ⟨1, _⟩ => show win0_0.index t (1 : Fin 4) * 64 + 1 * r.val = n.val; omega
  | ⟨2, _⟩ => show win0_0.index t (2 : Fin 4) * 64 + 1 * k.val = k.val; omega
  | ⟨3, _⟩ => show win0_0.index t (3 : Fin 4) * 64 + 1 * g.val = g.val; omega

/-- Entry (n, f) of the feature block is the array's entry at batch b. -/
private theorem featBlk_apply (c : Dev nD) (t : Fin cfg0.N) (n : Fin 256) (f : Fin 128) (b : Fin 32)
    (hb : b.val = win0_8.index t (0 : Fin 3)) :
    featBlk m c t (ix3 0 n f) = (m ((c : Thread nD τ).loc main_arg0) : S32x256x128.Idx → EReal) (ix3 b n f) := by
  obtain ⟨-, -, -, -, e0, e1, e2, -⟩ := tile_index t
  show V m c main_arg0 (((cfg0.win 1).blk t).view.emb (ix3 0 n f)) = _
  rw [V_main_arg0]
  refine congrArg _ ?_
  funext a; apply Fin.ext
  match a with
  | ⟨0, _⟩ => show win0_1.index t (0 : Fin 3) * 1 + 1 * (0 : Fin 1).val = b.val; rw [e0, hb]; simp
  | ⟨1, _⟩ => show win0_1.index t (1 : Fin 3) * 256 + 1 * n.val = n.val; omega
  | ⟨2, _⟩ => show win0_1.index t (2 : Fin 3) * 128 + 1 * f.val = f.val; omega

/-- Entry (r, k) of the neighbour tile is the argument's word at batch b, atom n = 64·q + r, when that word is below 256
    (the clip to [0, 255] is then the identity). -/
private theorem nbrBlk_apply (c : Dev nD) (t : Fin cfg0.N) (r k : Fin 64) (b : Fin 32) (n : Fin 256)
    (hb : b.val = win0_8.index t (0 : Fin 3)) (hn : n.val = win0_8.index t (1 : Fin 3) * 64 + r.val)
    (h : ((m ((c : Thread nD τ).loc main_arg2) : S32x256x64.Idx → BitVec 32) (ix3 b n k)).toNat < 256) :
    nbrBlk m c t (ix3 0 r k) = (m ((c : Thread nD τ).loc main_arg2) : S32x256x64.Idx → BitVec 32) (ix3 b n k) := by
  obtain ⟨-, -, -, -, -, -, -, e0, e1, e2, -⟩ := tile_index t
  have e : ((cfg0.win 2).blk t).view.emb (ix3 0 r k) = (ix3 b n k : S32x256x64.Idx) := by
    funext a; apply Fin.ext
    match a with
    | ⟨0, _⟩ => show win0_2.index t (0 : Fin 3) * 1 + 1 * (0 : Fin 1).val = b.val; rw [e0, hb]; simp
    | ⟨1, _⟩ => show win0_2.index t (1 : Fin 3) * 64 + 1 * r.val = n.val; omega
    | ⟨2, _⟩ => show win0_2.index t (2 : Fin 3) * 64 + 1 * k.val = k.val; omega
  show V m c main_v0 (((cfg0.win 2).blk t).view.emb (ix3 0 r k)) = _
  rw [e]
  exact V_main_v0_apply m c _ h

/-- Entry (r, k) of the mask tile is the array's entry at batch b, atom n = 64·q + r. -/
private theorem mskBlk_apply (c : Dev nD) (t : Fin cfg0.N) (r k : Fin 64) (b : Fin 32) (n : Fin 256)
    (hb : b.val = win0_8.index t (0 : Fin 3)) (hn : n.val = win0_8.index t (1 : Fin 3) * 64 + r.val) :
    mskBlk m c t (ix3 0 r k) = (m ((c : Thread nD τ).loc main_arg3) : S32x256x64.Idx → EReal) (ix3 b n k) := by
  obtain ⟨-, -, -, -, -, -, -, -, -, -, e0, e1, e2, -⟩ := tile_index t
  show V m c main_arg3 (((cfg0.win 3).blk t).view.emb (ix3 0 r k)) = _
  rw [V_main_arg3]
  refine congrArg _ ?_
  funext a; apply Fin.ext
  match a with
  | ⟨0, _⟩ => show win0_3.index t (0 : Fin 3) * 1 + 1 * (0 : Fin 1).val = b.val; rw [e0, hb]; simp
  | ⟨1, _⟩ => show win0_3.index t (1 : Fin 3) * 64 + 1 * r.val = n.val; omega
  | ⟨2, _⟩ => show win0_3.index t (2 : Fin 3) * 64 + 1 * k.val = k.val; omega

/-- The first weight matrix as the body reads it is the argument (the change of float format is the identity on extended reals). -/
private theorem w1Blk_eq (c : Dev nD) (t : Fin cfg0.N) :
    w1Blk m c t = (m ((c : Thread nD τ).loc main_arg4) : S64x128.Idx → EReal) := by
  obtain ⟨-, -, -, -, -, -, -, -, -, -, -, -, -, e0, e1, -⟩ := tile_index t
  funext y
  obtain ⟨p, q, rfl⟩ : ∃ (p : Fin 64) (q : Fin 128), y = ix2 p q := ⟨y 0, y 1, eq_ix2 y⟩
  show V m c main_v1 (((cfg0.win 4).blk t).view.emb (ix2 p q)) = _
  refine (congrFun (V_main_v1_eq m c) _).trans ?_
  refine congrArg _ ?_
  funext a; apply Fin.ext
  match a with
  | ⟨0, _⟩ => show win0_4.index t (0 : Fin 2) * 64 + 1 * p.val = p.val; omega
  | ⟨1, _⟩ => show win0_4.index t (1 : Fin 2) * 128 + 1 * q.val = q.val; omega

/-- The first bias as the body reads it is the argument. -/
private theorem b1Blk_eq (c : Dev nD) (t : Fin cfg0.N) :
    b1Blk m c t = (m ((c : Thread nD τ).loc main_arg5) : S128.Idx → EReal) := by
  obtain ⟨-, -, -, -, -, -, -, -, -, -, -, -, -, -, -, e0, -⟩ := tile_index t
  funext y
  obtain ⟨p, rfl⟩ : ∃ (p : Fin 128), y = ix1 p := ⟨y 0, eq_ix1 y⟩
  show V m c main_arg5 (((cfg0.win 5).blk t).view.emb (ix1 p)) = _
  rw [V_main_arg5]
  refine congrArg _ ?_
  funext a; apply Fin.ext
  match a with
  | ⟨0, _⟩ => show win0_5.index t (0 : Fin 1) * 128 + 1 * p.val = p.val; omega

/-- The second weight matrix as the body reads it is the argument. -/
private theorem w2Blk_eq (c : Dev nD) (t : Fin cfg0.N) :
    w2Blk m c t = (m ((c : Thread nD τ).loc main_arg6) : S128x128.Idx → EReal) := by
  obtain ⟨-, -, -, -, -, -, -, -, -, -, -, -, -, -, -, -, e0, e1, -⟩ := tile_index t
  funext y
  obtain ⟨p, q, rfl⟩ : ∃ (p : Fin 128) (q : Fin 128), y = ix2 p q := ⟨y 0, y 1, eq_ix2 y⟩
  show V m c main_v2 (((cfg0.win 6).blk t).view.emb (ix2 p q)) = _
  refine (congrFun (V_main_v2_eq m c) _).trans ?_
  refine congrArg _ ?_
  funext a; apply Fin.ext
  match a with
  | ⟨0, _⟩ => show win0_6.index t (0 : Fin 2) * 128 + 1 * p.val = p.val; omega
  | ⟨1, _⟩ => show win0_6.index t (1 : Fin 2) * 128 + 1 * q.val = q.val; omega

/-- The second bias as the body reads it is the argument. -/
private theorem b2Blk_eq (c : Dev nD) (t : Fin cfg0.N) :
    b2Blk m c t = (m ((c : Thread nD τ).loc main_arg7) : S128.Idx → EReal) := by
  obtain ⟨-, -, -, -, -, -, -, -, -, -, -, -, -, -, -, -, -, -, e0, -⟩ := tile_index t
  funext y
  obtain ⟨p, rfl⟩ : ∃ (p : Fin 128), y = ix1 p := ⟨y 0, eq_ix1 y⟩
  show V m c main_arg7 (((cfg0.win 7).blk t).view.emb (ix1 p)) = _
  rw [V_main_arg7]
  refine congrArg _ ?_
  funext a; apply Fin.ext
  match a with
  | ⟨0, _⟩ => show win0_7.index t (0 : Fin 1) * 128 + 1 * p.val = p.val; omega

/-- The specification read on the argument arrays as launched. -/
private abbrev specArr (c : Dev nD) : S32x256x128.Idx → EReal :=
  Cert.Spec.G (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- What grid point t writes back is the specification read on its tile. -/
private theorem flushed_eq (c : Dev nD)
    (hfin : ∀ j, ∃ x : ℝ, (m ((c : Thread nD τ).loc main_arg0) : S32x256x128.Idx → EReal) j = (x : EReal))
    (hidx : ∀ j, ((m ((c : Thread nD τ).loc main_arg2) : S32x256x64.Idx → BitVec 32) j).toNat < 256)
    (t : Fin cfg0.N) :
    (dats m 0 c).flushed 8 t = ((cfg0.win 8).blk t).view.read (Elt Ideal) (specArr m c) := by
  rw [Value.flushed8]
  unfold out0_8
  rw [View.canon_unit_zero hz3]
  simp only [View.ld_unit_zero (S := S1x64x64x64) hz4, View.ld_unit_zero (S := S1x256x128) hz3,
    View.ld_unit_zero (S := S1x64x64) hz3, View.ld_unit_zero (S := S64x128) hz2, View.ld_unit_zero (S := S128) hz1,
    View.ld_unit_zero (S := S128x128) hz2]
  have hb8 : win0_8.index t (0 : Fin 3) ≤ 31 ∧ win0_8.index t (1 : Fin 3) ≤ 3 ∧ win0_8.index t (2 : Fin 3) = 0 := by
    obtain ⟨-, -, -, -, -, -, -, -, -, -, -, -, -, -, -, -, -, -, -, h⟩ := tile_index t
    exact h
  obtain ⟨hb0, hb1, hb2⟩ := hb8
  funext y
  obtain ⟨z, r, f, rfl⟩ : ∃ (z : Fin 1) (r : Fin 64) (f : Fin 128), y = ix3 z r f := ⟨y 0, y 1, y 2, eq_ix3 y⟩
  obtain rfl : z = 0 := Subsingleton.elim _ _
  have hfinB : ∀ j, ∃ x : ℝ, featBlk m c t j = (x : EReal) := fun j => by
    obtain ⟨z', n', f', rfl⟩ : ∃ (z' : Fin 1) (n' : Fin 256) (f' : Fin 128), j = ix3 z' n' f' := ⟨j 0, j 1, j 2, eq_ix3 j⟩
    obtain rfl : z' = 0 := Subsingleton.elim _ _
    rw [featBlk_apply m c t n' f' ⟨win0_8.index t (0 : Fin 3), by omega⟩ rfl]
    exact hfin _
  have hidxB : ∀ j, (nbrBlk m c t j).toNat < 256 := fun j => by
    obtain ⟨z', r', k', rfl⟩ : ∃ (z' : Fin 1) (r' : Fin 64) (k' : Fin 64), j = ix3 z' r' k' := ⟨j 0, j 1, j 2, eq_ix3 j⟩
    obtain rfl : z' = 0 := Subsingleton.elim _ _
    rw [nbrBlk_apply m c t r' k' ⟨win0_8.index t (0 : Fin 3), by omega⟩ ⟨win0_8.index t (1 : Fin 3) * 64 + r'.val, by omega⟩ rfl rfl (hidx _)]
    exact hidx _
  refine (body_apply (rbfBlk m c t) (featBlk m c t) (nbrBlk m c t) (mskBlk m c t) (w1Blk m c t) (b1Blk m c t)
    (w2Blk m c t) (b2Blk m c t) hfinB hidxB r f).trans ?_
  have hemb : ((cfg0.win 8).blk t).view.emb (ix3 0 r f)
      = (ix3 (⟨win0_8.index t (0 : Fin 3), by omega⟩ : Fin 32) (⟨win0_8.index t (1 : Fin 3) * 64 + r.val, by omega⟩ : Fin 256) f : S32x256x128.Idx) := by
    funext a; apply Fin.ext
    match a with
    | ⟨0, _⟩ => show win0_8.index t (0 : Fin 3) * 1 + 1 * (0 : Fin 1).val = win0_8.index t (0 : Fin 3); simp
    | ⟨1, _⟩ => show win0_8.index t (1 : Fin 3) * 64 + 1 * r.val = win0_8.index t (1 : Fin 3) * 64 + r.val; omega
    | ⟨2, _⟩ => show win0_8.index t (2 : Fin 3) * 128 + 1 * f.val = f.val; omega
  show _ = specArr m c (((cfg0.win 8).blk t).view.emb (ix3 0 r f))
  rw [hemb]
  refine Eq.trans ?_ (Cert.Spec.G_apply _ _ _ _ _ _ _ _ _ _ _).symm
  unfold Cert.Spec.outAt
  rw [w1Blk_eq, b1Blk_eq, w2Blk_eq, b2Blk_eq]
  refine congr (congr (congr (congrArg Cert.Spec.outElt ?_) ?_) ?_) ?_
  · funext n'
    exact featBlk_apply m c t n' f _ rfl
  · funext k
    exact nbrBlk_apply m c t r k _ _ rfl rfl (hidx _)
  · funext k
    refine congrArg (fun rb => Cert.Spec.filtRow rb _ _ _ _ f) ?_
    funext g
    exact rbfBlk_apply m c t r k g _ _ rfl rfl
  · funext k
    exact mskBlk_apply m c t r k _ _ rfl rfl

/-- An index of the result is in grid point t's tile iff each coordinate is in the tile's range on its axis. -/
private theorem mem_tile (t : Fin cfg0.N) (i : S32x256x128.Idx) :
    i ∈ ((cfg0.win 8).blk t).view.set ↔ ∀ a : Fin 3, win0_8.index t a * S1x64x128.size a ≤ (i a).val ∧ (i a).val < win0_8.index t a * S1x64x128.size a + S1x64x128.size a := by
  show i ∈ ((View.whole main_v3).slice (win0_8.rect t)).set ↔ _
  rw [View.set_slice_whole, Rect.mem_set_unit]
  exact Iff.rfl

/-- Every (batch, atom, channel) lies in the tile of the grid point (batch, atom / 64). -/
private theorem tiles_cover (i : S32x256x128.Idx) :
    ∃ t : Fin cfg0.N, (cfg0.win 8).flush t = true ∧ i ∈ ((cfg0.win 8).blk t).view.set := by
  have hi0 : (i 0).val < 32 := (i 0).isLt
  have hi1 : (i 1).val < 256 := (i 1).isLt
  have hi2 : (i 2).val < 128 := (i 2).isLt
  obtain ⟨t, ht⟩ := tile_onto ⟨(i 0).val, hi0⟩ ⟨(i 1).val / 64, by omega⟩
  have q0 : win0_8.index t (0 : Fin 3) = (i 0).val := congrFun ht 0
  have q1 : win0_8.index t (1 : Fin 3) = (i 1).val / 64 := congrFun ht 1
  have q2 : win0_8.index t (2 : Fin 3) = 0 := congrFun ht 2
  refine ⟨t, flush0_8 t, ?_⟩
  rw [mem_tile]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 64 ≤ (i 1).val ∧ (i 1).val < win0_8.index t (1 : Fin 3) * 64 + 64; omega
  | ⟨2, _⟩ => show win0_8.index t (2 : Fin 3) * 128 ≤ (i 2).val ∧ (i 2).val < win0_8.index t (2 : Fin 3) * 128 + 128; omega

/-- After the run the result array is the specification of the argument arrays, for finite features and in-range indices. -/
theorem final (c : Dev nD) (hfin : ∀ j, ∃ x : ℝ, (m ((c : Thread nD τ).loc main_arg0) : S32x256x128.Idx → EReal) j = (x : EReal))
    (hidx : ∀ j, ((m ((c : Thread nD τ).loc main_arg2) : S32x256x64.Idx → BitVec 32) j).toNat < 256) :
    (dats m 0 c).arrAt 8 cfg0.N = Cert.Spec.G (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) :=
  (dats m 0 c).arrAt_eq_of_cover 8 (specArr m c) (fun t _ => flushed_eq m c hfin hidx t) tiles_cover

end Cert.KernelIdeal.Bridge

end
-- ==== Proof.RefGather.lean ====
/-
  The reference's batched row gather read at an index: result element (b, p, f) is the operand at batch b, at the
  row the start index (b, p, 0) names — read signed and clamped into [0, 255] — and at channel f.
-/
import proofs.«422019_j32882269618458_3_alg».proof.ReferenceIdeal
import proofs.«422019_j32882269618458_3_alg».proof.Proof.Gen.ReferenceIdeal
import Idealize.ShloMosaic.Lib.ValueIdx
import Idealize.ShloMosaic.Lib.Pipeline.Value

noncomputable section

namespace Cert.ReferenceIdeal.Bridge

open Cert.ReferenceIdeal Cert.ReferenceIdeal.Gen Idealize.ShloMosaic Idealize.ShloMosaic.TcCoe Idealize.SL.Sem Idealize.ShloMosaic.StableHlo Idealize.ShloMosaic.ValueIdx

/-- The gather's dimension numbers, under a short name. -/
local notation "gd" => gather_S32x256x128_S32x16384x1_S32x16384x128_2_1_0_0_1_2_11128

theorem gather_apply {α : Type} (x : S32x256x128.Idx → α) (idx : IVec S32x16384x1 32) (b : Fin 32) (p : Fin 16384) (f : Fin 128) :
    Host.gather gather_S32x256x128_S32x16384x1_S32x16384x128_2_1_0_0_1_2_11128 x idx (ix3 b p f)
      = x (ix3 b ⟨min (idx (ix3 b p 0)).toInt.toNat 255, by omega⟩ f) := by
  -- the gather reads the operand at the operand index; compare the two indices axis by axis:
  -- each coordinate is (clamped start) + (batch coordinate) + (offset coordinate)
  unfold Host.gather
  congr 1
  funext a
  refine Fin.ext ?_
  match a with
  | ⟨0, _⟩ =>
    -- axis 0 is the batching axis: no start, no offset, the result's batch coordinate b
    show GatherDims.start gd (ix3 b p f) idx 0 + GatherDims.batchCoord gd (ix3 b p f) 0 + GatherDims.offCoord gd (ix3 b p f) 0 = _
    rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  | ⟨1, _⟩ =>
    -- axis 1 is the indexed (collapsed) axis: the start index at (b, p, 0), read signed, clamped to 256 − 1
    show GatherDims.start gd (ix3 b p f) idx 1 + GatherDims.batchCoord gd (ix3 b p f) 1 + GatherDims.offCoord gd (ix3 b p f) 1 = _
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (1 : Fin 3) ∈ GatherDims.startIndexMap gd from by decide)]
    have hsi : GatherDims.siIdx gd (ix3 b p f) ⟨List.idxOf (1 : Fin 3) (GatherDims.startIndexMap gd),
        List.idxOf_lt_length_iff.2 (by decide)⟩ = ix3 b p 0 := by
      funext c; refine Fin.ext ?_
      match c with
      | ⟨0, _⟩ => rfl
      | ⟨1, _⟩ => rfl
      | ⟨2, _⟩ => rfl
    rw [hsi]
    rfl
  | ⟨2, _⟩ =>
    -- axis 2 is the offset axis: not in the start index map, not batching, the result's offset coordinate f
    show GatherDims.start gd (ix3 b p f) idx 2 + GatherDims.batchCoord gd (ix3 b p f) 2 + GatherDims.offCoord gd (ix3 b p f) 2 = _
    rw [GatherDims.batchCoord_eq_zero _ _ _ (by decide)]
    have hs : GatherDims.start gd (ix3 b p f) idx 2 = 0 := by
      unfold GatherDims.start
      rw [dif_neg (by decide)]
    rw [hs]
    simp only [Nat.zero_add, Nat.add_zero]
    unfold GatherDims.offCoord
    rw [dif_pos (by decide)]
    rfl

end Cert.ReferenceIdeal.Bridge

end
-- ==== Proof.RefIsG.lean ====
/-
  The reference's result, stage by stage, is the specification: the einsums are the sums over the contracted axis,
  the softplus call is the shifted softplus, and the gather reads the neighbour's row when the index is in range.
-/
import proofs.«422019_j32882269618458_3_alg».proof.Proof.RefRead
import proofs.«422019_j32882269618458_3_alg».proof.Proof.RefGather
import proofs.«422019_j32882269618458_3_alg».proof.Proof.Spec
import Idealize.ShloMosaic.Lib.ReduceAll
import Idealize.ShloMosaic.Lib.StableHlo.Predicate

noncomputable section

namespace Cert.ReferenceIdeal.Bridge

open Cert.ReferenceIdeal Cert.ReferenceIdeal.Gen Idealize.ShloMosaic Idealize.ShloMosaic.TcCoe Idealize.SL.Sem Idealize.ShloMosaic.StableHlo Idealize.ShloMosaic.ValueIdx Cert.ReferenceIdeal.ReadP

/-- First layer: the contraction over the 64 radial-basis channels plus the bias, at (b, n, k, f). -/
private theorem hid_at (x1 : (⟨S32x256x64x64, .f32⟩ : BufTy).Contents (Elt Ideal)) (x4 : (⟨S64x128, .f32⟩ : BufTy).Contents (Elt Ideal))
    (x5 : (⟨S128, .f32⟩ : BufTy).Contents (Elt Ideal)) (b : Fin 32) (n : Fin 256) (k : Fin 64) (f : Fin 128) :
    val_main_v3 (F := Ideal) x1 x4 x5 (ix4 b n k f) = Cert.Spec.hidRow (fun g => x1 (ix4 b n k g)) x4 x5 f := by
  have e1 : ∀ g : Fin 64, lidx_main_v0 (ix4 b n k f) g = ix4 b n k g := fun g => funext fun a => Fin.ext (by
    match a with | ⟨0, _⟩ => rfl | ⟨1, _⟩ => rfl | ⟨2, _⟩ => rfl | ⟨3, _⟩ => rfl)
  have e2 : ∀ g : Fin 64, ridx_main_v0 (ix4 b n k f) g = ix2 g f := fun g => funext fun a => Fin.ext (by
    match a with | ⟨0, _⟩ => rfl | ⟨1, _⟩ => rfl)
  have e3 : idx_main_v1 (idx_main_v2 (ix4 b n k f)) = ix1 f := funext fun a => Fin.ext (by
    match a with | ⟨0, _⟩ => rfl)
  rw [val_main_v3_apply, val_main_v0_apply, val_main_v2_apply, val_main_v1_apply]
  unfold Cert.Spec.hidRow
  simp only [e1, e2, e3, Ideal.addf_def]

/-- The is-not-a-number guard never fires over the extended reals: `a ≠ a` is false. -/
private theorem une_self (a : EReal) : Ideal.cmp .une a a = 0#1 := by
  simp [Ideal.cmp]

/-- The softplus call followed by the subtraction of the constant is the shifted softplus of the hidden value. -/
private theorem ssp_at (x1 : (⟨S32x256x64x64, .f32⟩ : BufTy).Contents (Elt Ideal)) (x4 : (⟨S64x128, .f32⟩ : BufTy).Contents (Elt Ideal))
    (x5 : (⟨S128, .f32⟩ : BufTy).Contents (Elt Ideal)) (i : S32x256x64x128.Idx) :
    val_main_v6 (F := Ideal) x1 x4 x5 i = Cert.Spec.ssp (val_main_v3 (F := Ideal) x1 x4 x5 i) := by
  simp only [val_main_v6_apply, val_main_v4_apply, val_main_v5_apply, val_main_cst_apply, val_main_call0_v4_apply,
    val_main_call0_v11_apply, val_main_call0_v1_apply, val_main_call0_v10_apply, val_main_call0_v9_apply,
    val_main_call0_v8_apply, val_main_call0_v7_apply, val_main_call0_v3_apply, val_main_call0_v0_apply,
    val_main_call0_v2_apply, val_main_call0_cst_apply, Ideal.cmpf_def, une_self, select_zero, Ideal.addf_def, Ideal.subf_def,
    Ideal.maximumf_def, Ideal.hostUnary_exp_def, Ideal.hostUnary_log1p_def, Ideal.hostNegf_def, Ideal.hostAbsf_def,
    Ideal.negf_def, Ideal.absf_def, Ideal.ofBits_def]
  rfl

/-- The filter stage: the second contraction over the 128 hidden channels plus the bias, at (b, n, k, f). -/
private theorem filt_at (x1 : (⟨S32x256x64x64, .f32⟩ : BufTy).Contents (Elt Ideal)) (x4 : (⟨S64x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (b : Fin 32) (n : Fin 256) (k : Fin 64) (f : Fin 128) :
    val_main_v10 (F := Ideal) x1 x4 x5 x6 x7 (ix4 b n k f) = Cert.Spec.filtRow (fun g => x1 (ix4 b n k g)) x4 x5 x6 x7 f := by
  have e1 : ∀ f' : Fin 128, lidx_main_v7 (ix4 b n k f) f' = ix4 b n k f' := fun f' => funext fun a => Fin.ext (by
    match a with | ⟨0, _⟩ => rfl | ⟨1, _⟩ => rfl | ⟨2, _⟩ => rfl | ⟨3, _⟩ => rfl)
  have e2 : ∀ f' : Fin 128, ridx_main_v7 (ix4 b n k f) f' = ix2 f' f := fun f' => funext fun a => Fin.ext (by
    match a with | ⟨0, _⟩ => rfl | ⟨1, _⟩ => rfl)
  have e3 : idx_main_v8 (idx_main_v9 (ix4 b n k f)) = ix1 f := funext fun a => Fin.ext (by
    match a with | ⟨0, _⟩ => rfl)
  rw [val_main_v10_apply, val_main_v7_apply, val_main_v9_apply, val_main_v8_apply]
  unfold Cert.Spec.filtRow
  simp only [e1, e2, e3, Ideal.addf_def, ssp_at, hid_at]

/-- Row `64·n + k` of the [32, 16384] view of the neighbour-index array. -/
private def flatRow (n : Fin 256) (k : Fin 64) : Fin 16384 :=
  ⟨64 * n.val + k.val, by have := n.isLt; have := k.isLt; omega⟩

/-- The reshaped index array with its trailing unit axis: element (b, 64·n + k, 0) is the word at (b, n, k). -/
private theorem idxw_at (x2 : (⟨S32x256x64, .i32⟩ : BufTy).Contents (Elt Ideal)) (b : Fin 32) (n : Fin 256) (k : Fin 64) :
    val_main_v12 (F := Ideal) x2 (ix3 b (flatRow n k) 0) = (x2 : S32x256x64.Idx → BitVec 32) (ix3 b n k) := by
  have e : idx_main_v11 (idx_main_v12 (ix3 b (flatRow n k) (0 : Fin 1))) = ix3 b n k := funext fun a => Fin.ext (by
    have hb := b.isLt; have hn := n.isLt; have hk := k.isLt
    match a with
    | ⟨0, _⟩ => show (b.val * 16384 + (64 * n.val + k.val)) / 16384 = b.val; omega
    | ⟨1, _⟩ => show (b.val * 16384 + (64 * n.val + k.val)) / 64 % 256 = n.val; omega
    | ⟨2, _⟩ => show (b.val * 16384 + (64 * n.val + k.val)) % 64 = k.val; omega)
  rw [val_main_v12_apply, val_main_v11_apply, e]

/-- Every word of the reshaped index array is one of the argument's words, so it is below 256. -/
private theorem idxw_lt (x2 : (⟨S32x256x64, .i32⟩ : BufTy).Contents (Elt Ideal))
    (hidx : ∀ j, ((x2 : S32x256x64.Idx → BitVec 32) j).toNat < 256) (i : S32x16384x1.Idx) :
    (val_main_v12 (F := Ideal) x2 i).toNat < 256 := by
  rw [val_main_v12_apply, val_main_v11_apply]
  exact hidx _

/-- A word below 256 is not negative as a signed word, so the wrap-around of negative indices leaves it alone. -/
private theorem norm_at (x2 : (⟨S32x256x64, .i32⟩ : BufTy).Contents (Elt Ideal))
    (hidx : ∀ j, ((x2 : S32x256x64.Idx → BitVec 32) j).toNat < 256) (i : S32x16384x1.Idx) :
    val_main_call1_v4 (F := Ideal) x2 i = val_main_v12 (F := Ideal) x2 i := by
  have hw := idxw_lt x2 hidx i
  rw [val_main_call1_v4_apply, val_main_call1_v1_apply, val_main_call1_v0_apply, val_main_call1_c_apply]
  have h0 : IntOp.cmpi .slt (val_main_v12 (F := Ideal) x2 i) 0#32 = 0#1 :=
    eq_zero_of_ne_one fun h => by
      have := (Predicate.slt_iff_toNat (by omega) (by decide)).mp h
      simp at this
  rw [h0, select_zero]

/-- Under the range hypothesis every entry of the in-bounds mask is set. -/
private theorem inb_at (x2 : (⟨S32x256x64, .i32⟩ : BufTy).Contents (Elt Ideal))
    (hidx : ∀ j, ((x2 : S32x256x64.Idx → BitVec 32) j).toNat < 256) (i : S32x16384x1.Idx) :
    val_main_call1_v10 (F := Ideal) x2 i = 1#1 := by
  have hw := idxw_lt x2 hidx i
  rw [val_main_call1_v10_apply, val_main_call1_v6_apply, val_main_call1_v9_apply, norm_at x2 hidx i,
    val_main_call1_v5_apply, val_main_call1_c_2_apply, val_main_call1_v8_apply, val_main_call1_v7_apply, val_main_call1_c_1_apply]
  have h1 : IntOp.cmpi .sge (val_main_v12 (F := Ideal) x2 i) 0#32 = 1#1 :=
    (Predicate.sge_iff_toNat (by omega) (by decide)).mpr (by simp)
  have h2 : IntOp.cmpi .sle (val_main_v12 (F := Ideal) x2 i) 255#32 = 1#1 :=
    (Predicate.sle_iff_toNat (by omega) (by decide)).mpr (by simp; omega)
  rw [h1, h2]
  rfl

/-- A left fold by `and` that starts at 1 and meets only 1s is 1. -/
private theorem foldl_andi_ones {ι : Type} (x : ι → BitVec 1) (hx : ∀ i, x i = 1#1) :
    ∀ l : List ι, l.foldl (fun r i => IntOp.andi r (x i)) 1#1 = 1#1
  | [] => rfl
  | a :: l => by
    have h1 : IntOp.andi 1#1 1#1 = 1#1 := by decide
    rw [List.foldl_cons, hx a, h1]
    exact foldl_andi_ones x hx l

/-- The mask reduced over its trailing unit axis is set everywhere, since each of its entries is. -/
private theorem mask_at (x2 : (⟨S32x256x64, .i32⟩ : BufTy).Contents (Elt Ideal))
    (hidx : ∀ j, ((x2 : S32x256x64.Idx → BitVec 32) j).toNat < 256) (j : S32x16384.Idx) :
    val_main_call1_v11 (F := Ideal) x2 j = 1#1 := by
  unfold val_main_call1_v11
  rw [Host.reduce_eq_foldl]
  have hinit : (val_main_call1_c_3 (F := Ideal)) (Shape.Idx.first h_S_) = 1#1 := rfl
  rw [hinit]
  exact foldl_andi_ones _ (inb_at x2 hidx) _

/-- The row gather at a start word `w` below 256 reads row `w`: signed and unsigned readings agree and the clamp is idle. -/
private theorem gather_row {α : Type} (x : S32x256x128.Idx → α) (idx : IVec S32x16384x1 32) (b : Fin 32) (p : Fin 16384)
    (f : Fin 128) (w : BitVec 32) (hw : w.toNat < 256) (h : idx (ix3 b p 0) = w) :
    Host.gather gather_S32x256x128_S32x16384x1_S32x16384x128_2_1_0_0_1_2_11128 x idx (ix3 b p f) = x (ix3 b (Cert.Spec.row w) f) := by
  subst h
  rw [gather_apply]
  exact congrArg (fun r : Fin 256 => x (ix3 b r f)) (Fin.ext (by
    show min _ 255 = min _ 255
    rw [Predicate.toInt_eq_toNat_of_lt (by omega), Int.toNat_natCast]))

/-- The gathered stage: element (b, n, k, f) of the reshaped gather is the feature at the row the word at (b, n, k) names. -/
private theorem gath_at (x0 : (⟨S32x256x128, .f32⟩ : BufTy).Contents (Elt Ideal)) (x2 : (⟨S32x256x64, .i32⟩ : BufTy).Contents (Elt Ideal))
    (hidx : ∀ j, ((x2 : S32x256x64.Idx → BitVec 32) j).toNat < 256) (b : Fin 32) (n : Fin 256) (k : Fin 64) (f : Fin 128) :
    val_main_v14 (F := Ideal) x0 x2 (ix4 b n k f)
      = x0 (ix3 b (Cert.Spec.row ((x2 : S32x256x64.Idx → BitVec 32) (ix3 b n k))) f) := by
  have e : idx_main_v14 (ix4 b n k f) = ix3 b (flatRow n k) f := funext fun a => Fin.ext (by
    have hb := b.isLt; have hn := n.isLt; have hk := k.isLt; have hf := f.isLt
    match a with
    | ⟨0, _⟩ => show (((b.val * 256 + n.val) * 64 + k.val) * 128 + f.val) / 2097152 = b.val; omega
    | ⟨1, _⟩ => show (((b.val * 256 + n.val) * 64 + k.val) * 128 + f.val) / 128 % 16384 = 64 * n.val + k.val; omega
    | ⟨2, _⟩ => show (((b.val * 256 + n.val) * 64 + k.val) * 128 + f.val) % 128 = f.val; omega)
  rw [val_main_v14_apply, e, val_main_v13_apply, val_main_call1_v13_apply, mask_at x2 hidx, select_one]
  unfold val_main_call1_v12
  exact gather_row x0 _ b (flatRow n k) f _ (hidx _) ((norm_at x2 hidx _).trans (idxw_at x2 b n k))

/-- The reference's last stage is the specification of the arguments, for in-range indices. -/
theorem ref_eq_G (x0 : (⟨S32x256x128, .f32⟩ : BufTy).Contents (Elt Ideal)) (x1 : (⟨S32x256x64x64, .f32⟩ : BufTy).Contents (Elt Ideal))
    (x2 : (⟨S32x256x64, .i32⟩ : BufTy).Contents (Elt Ideal)) (x3 : (⟨S32x256x64, .f32⟩ : BufTy).Contents (Elt Ideal))
    (x4 : (⟨S64x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (hidx : ∀ j, ((x2 : S32x256x64.Idx → BitVec 32) j).toNat < 256) :
    val_main_v19 (F := Ideal) x0 x1 x2 x3 x4 x5 x6 x7 = Cert.Spec.G x0 x1 x2 x3 x4 x5 x6 x7 := by
  funext i
  obtain ⟨b, n, f, rfl⟩ : ∃ (b : Fin 32) (n : Fin 256) (f : Fin 128), i = ix3 b n f := ⟨i 0, i 1, i 2, eq_ix3 i⟩
  -- the sum over the 64 neighbours starts from the word of +0.0, which is 0
  rw [Cert.Spec.G_apply, val_main_v19_apply, val_main_cst_0_apply, Ideal.ofBits_def, Ideal.ofBits_zero_f32, zero_add]
  unfold Cert.Spec.outAt Cert.Spec.outElt
  refine Finset.sum_congr rfl fun k _ => ?_
  -- neighbour k of (b, n, f) is element (b, n, k, f) of the product; the mask is read at (b, n, k)
  have e : idx_main_v19 (ix3 b n f) k = ix4 b n k f := funext fun a => Fin.ext (by
    match a with | ⟨0, _⟩ => rfl | ⟨1, _⟩ => rfl | ⟨2, _⟩ => rfl | ⟨3, _⟩ => rfl)
  have e2 : idx_main_v16 (idx_main_v17 (ix4 b n k f)) = ix3 b n k := funext fun a => Fin.ext (by
    match a with | ⟨0, _⟩ => rfl | ⟨1, _⟩ => rfl | ⟨2, _⟩ => rfl)
  rw [e, val_main_v18_apply, val_main_v15_apply, val_main_v17_apply, val_main_v16_apply, e2, gath_at x0 x2 hidx, filt_at]
  simp only [Ideal.mulf_def]

end Cert.ReferenceIdeal.Bridge

end
-- ==== Proof.PreFacts.lean ====
/-
  What the precondition says of the two arrays the bridge needs: every feature is a real number, and every
  neighbour index word lies in [0, 256).
-/
import proofs.«422019_j32882269618458_3_alg».proof.Pre_finite_inputs
import proofs.«422019_j32882269618458_3_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Cert.Pre_finite_inputs Idealize.ShloMosaic Idealize.ShloMosaic.ValueIdx

/-- The scalar shape has a single index. -/
private instance : Subsingleton S_.Idx := ⟨fun a b => funext fun d => d.elim0⟩

/-- The f32 word 0x7F800000 is +∞ on the extended reals. -/
private theorem inf_word : Ideal.ofBits .f32 0x7F800000#32 = (⊤ : EReal) := by
  simp [Ideal.ofBits, Ideal.ieee]

/-- On the extended reals |x| = max x (−x); |x| < +∞ excludes both infinities, so x is a real number. -/
private theorem real_of_abs_lt_inf (x : EReal)
    (h : FloatOps.cmpf (F := Ideal) (φ := .f32) CmpFPredicate.olt (FloatOps.hostAbsf (F := Ideal) (φ := .f32) x)
      (Ideal.ofBits .f32 0x7F800000#32) = 1#1) : ∃ r : ℝ, x = (r : EReal) := by
  rw [inf_word] at h
  have h' : max x (-x) < (⊤ : EReal) := by
    have := (StableHlo.Predicate.ofBool_eq_one_iff _).1 h
    exact of_decide_eq_true this
  induction x using EReal.rec with
  | bot => simp at h'
  | coe r => exact ⟨r, rfl⟩
  | top => simp at h'

/-- One "all entries finite" conjunct read back: if the and-reduction of |a| < +∞ over the whole array is 1,
    every entry of a is a real number. -/
private theorem all_real {s : Shape} {axes : List (Fin s.rank)} (a : FVec Ideal s .f32)
    (hb : S_.BroadcastsInDim s (![] : Fin 0 → Fin s.rank)) (hr : s.ReducesTo axes S_) (h0 : 0 < S_.numel)
    (e : Host.reduce IntOp.andi
      (cmpf CmpFPredicate.olt (Host.absf a) (broadcastInDim s ![] hb (constant (F := Ideal) S_ .f32 0x7F800000#32)))
      (constantI S_ 1 1#1) hr h0 ix0 = 1#1) (j : s.Idx) : ∃ r : ℝ, a j = (r : EReal) :=
  real_of_abs_lt_inf (a j) (Host.reduce_andi_all _ _ hr h0 ix0 e j)

/-- The two index conjuncts read back: 0 ≤ w and w < 256 as signed words give w.toNat < 256. -/
private theorem word_lt (w : BitVec 32) (hge : IntOp.cmpi CmpIPredicate.sge w 0#32 = 1#1)
    (hlt : IntOp.cmpi CmpIPredicate.slt w 256#32 = 1#1) : w.toNat < 256 := by
  have h1 : (0#32 : BitVec 32).toInt ≤ w.toInt := IntOp.cmpi_sge.1 hge
  have h2 : w.toInt < (256#32 : BitVec 32).toInt := IntOp.cmpi_slt.1 hlt
  have e0 : (0#32 : BitVec 32).toInt = 0 := by decide
  have e256 : (256#32 : BitVec 32).toInt = 256 := by decide
  rw [e0] at h1
  rw [e256] at h2
  have hw := w.isLt
  rw [BitVec.toInt_eq_toNat_cond] at h1 h2
  split at h1 <;> omega

/-- The precondition split into its conjuncts: every float input array holds real numbers only, and every
    index word lies in [0, 256). -/
private theorem pre_split (a0 : FVec Ideal S32x256x128 .f32) (a1 : FVec Ideal S32x256x64x64 .f32) (a2 : IVec S32x256x64 32)
    (a3 : FVec Ideal S32x256x64 .f32) (a4 : FVec Ideal S64x128 .f32) (a5 : FVec Ideal S128 .f32) (a6 : FVec Ideal S128x128 .f32)
    (a7 : FVec Ideal S128 .f32) (h : Cert.Pre_finite_inputs.fn (F := Ideal) a0 a1 a2 a3 a4 a5 a6 a7 = fun _ => 1#1) :
    (∀ j, ∃ r : ℝ, a0 j = (r : EReal)) ∧ (∀ j, ∃ r : ℝ, a1 j = (r : EReal)) ∧ (∀ j, ∃ r : ℝ, a3 j = (r : EReal)) ∧
    (∀ j, ∃ r : ℝ, a4 j = (r : EReal)) ∧ (∀ j, ∃ r : ℝ, a5 j = (r : EReal)) ∧ (∀ j, ∃ r : ℝ, a6 j = (r : EReal)) ∧
    (∀ j, ∃ r : ℝ, a7 j = (r : EReal)) ∧ (∀ j, (a2 j).toNat < 256) := by
  have h0 := congrFun h ValueIdx.ix0
  dsimp only [Cert.Pre_finite_inputs.fn, Cert.Pre_finite_inputs.fn_part1, Cert.Pre_finite_inputs.fn_part2] at h0
  have e : ∀ (x y : IVec S_ 1), andi x y ix0 = 1#1 ↔ x ix0 = 1#1 ∧ y ix0 = 1#1 := fun x y => IntOp.andi_eq_one
  simp only [e] at h0
  obtain ⟨⟨⟨⟨⟨⟨⟨⟨c0, c1⟩, c3⟩, c4⟩, c5⟩, c6⟩, c7⟩, cge⟩, clt⟩ := h0
  refine ⟨all_real a0 _ _ _ c0, all_real a1 _ _ _ c1, all_real a3 _ _ _ c3, all_real a4 _ _ _ c4,
    all_real a5 _ _ _ c5, all_real a6 _ _ _ c6, all_real a7 _ _ _ c7, fun j => ?_⟩
  exact word_lt (a2 j) (Host.reduce_andi_all _ _ _ _ ix0 cge j) (Host.reduce_andi_all _ _ _ _ ix0 clt j)

/-- Under the precondition every feature entry is a real number. -/
theorem feat_finite (a0 : FVec Ideal S32x256x128 .f32) (a1 : FVec Ideal S32x256x64x64 .f32) (a2 : IVec S32x256x64 32)
    (a3 : FVec Ideal S32x256x64 .f32) (a4 : FVec Ideal S64x128 .f32) (a5 : FVec Ideal S128 .f32) (a6 : FVec Ideal S128x128 .f32)
    (a7 : FVec Ideal S128 .f32) (h : Cert.Pre_finite_inputs.fn (F := Ideal) a0 a1 a2 a3 a4 a5 a6 a7 = fun _ => 1#1)
    (j : S32x256x128.Idx) : ∃ x : ℝ, a0 j = (x : EReal) :=
  (pre_split a0 a1 a2 a3 a4 a5 a6 a7 h).1 j

/-- Under the precondition every neighbour index word is below 256 as an unsigned number (that is, 0 ≤ idx < 256 signed). -/
theorem idx_lt (a0 : FVec Ideal S32x256x128 .f32) (a1 : FVec Ideal S32x256x64x64 .f32) (a2 : IVec S32x256x64 32)
    (a3 : FVec Ideal S32x256x64 .f32) (a4 : FVec Ideal S64x128 .f32) (a5 : FVec Ideal S128 .f32) (a6 : FVec Ideal S128x128 .f32)
    (a7 : FVec Ideal S128 .f32) (h : Cert.Pre_finite_inputs.fn (F := Ideal) a0 a1 a2 a3 a4 a5 a6 a7 = fun _ => 1#1)
    (j : S32x256x64.Idx) : (a2 j).toNat < 256 :=
  (pre_split a0 a1 a2 a3 a4 a5 a6 a7 h).2.2.2.2.2.2.2 j

end Cert.PreFacts

end
-- ==== Proof.lean ====
/-
  Kernel and reference compute, over the extended reals, the same function of the eight argument arrays:

    out[b, n, f] = Σ_k ( feat[b, idx[b, n, k], f] · filt[b, n, k, f] ) · mask[b, n, k],

  filt the two-layer perceptron (shifted softplus between the layers) of the radial-basis row rbf[b, n, k, ·]
  (Proof/Spec.lean). The kernel selects the neighbour's feature row by a product with a one-hot matrix, split in
  two products (with feat, and with feat − feat, which is zero for finite features); the reference by a gather.
  The two agree on the domain the precondition states: finite float inputs and neighbour indices in [0, 256).
  Outside that range the reference wraps a negative index and fills with a not-a-number, the kernel clips.

  The pieces: the kernel's stored tile element by element (KernelFilter, KernelGather, KernelBody); the arrays
  the host writes before the region (HostPrefix); the 128 tiles cover the result (Blocks); the reference stage by
  stage (RefGather, RefIsG, over the reference's run read back in RefRun and RefRead); what the precondition
  says of the features and the indices (PreFacts).
-/
import proofs.«422019_j32882269618458_3_alg».proof.Defs
import proofs.«422019_j32882269618458_3_alg».proof.Proof.Gen.Kernel
import proofs.«422019_j32882269618458_3_alg».proof.Proof.Gen.Kernel.Skeleton
import proofs.«422019_j32882269618458_3_alg».proof.Proof.Gen.Kernel.Launch
import proofs.«422019_j32882269618458_3_alg».proof.Proof.Gen.Kernel.Points
import proofs.«422019_j32882269618458_3_alg».proof.Proof.Gen.Kernel.Frame
import proofs.«422019_j32882269618458_3_alg».proof.Proof.Gen.KernelIdeal
import proofs.«422019_j32882269618458_3_alg».proof.Proof.Gen.KernelIdeal.Skeleton
import proofs.«422019_j32882269618458_3_alg».proof.Proof.Gen.KernelIdeal.Launch
import proofs.«422019_j32882269618458_3_alg».proof.Proof.Gen.KernelIdeal.Points
import proofs.«422019_j32882269618458_3_alg».proof.Proof.Gen.KernelIdeal.Frame
import proofs.«422019_j32882269618458_3_alg».proof.Proof.Gen.ReferenceIdeal
import proofs.«422019_j32882269618458_3_alg».proof.Proof.Gen.Pre_finite_inputs
import proofs.«422019_j32882269618458_3_alg».proof.Proof.Gen.KernelIdeal.Value
import proofs.«422019_j32882269618458_3_alg».proof.Proof.RefRun
import proofs.«422019_j32882269618458_3_alg».proof.Proof.RefRead
import proofs.«422019_j32882269618458_3_alg».proof.Proof.Blocks
import proofs.«422019_j32882269618458_3_alg».proof.Proof.RefIsG
import proofs.«422019_j32882269618458_3_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run, with its result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The one rewrite of the idealization: widening the feature table back after narrowing it is the identity over
    the extended reals, and the rounding through the narrow format at the word level. -/
theorem preserves : Cert.preserves_Kernel_KernelIdeal :=
  IdealRules.truncf_extf.statement Cert.KernelIdeal.S256x128 .f32 .bf16

/-- Both programs end with the specification of the (agreeing) arguments in their result arrays. -/
theorem algebraic : Cert.algebraic_KernelIdeal_ReferenceIdeal := by
  intro m ρ m' ρ' hpre hagree
  have hfin : ∀ (c : Dev Cert.KernelIdeal.nD) j, ∃ x : ℝ,
      (m ((c.tc : Thread Cert.KernelIdeal.nD Cert.KernelIdeal.τ).loc Cert.KernelIdeal.main_arg0) : Cert.KernelIdeal.S32x256x128.Idx → EReal) j = (x : EReal) :=
    fun c j => Cert.PreFacts.feat_finite _ _ _ _ _ _ _ _ (hpre c) j
  have hidx : ∀ (c : Dev Cert.KernelIdeal.nD) j,
      ((m ((c.tc : Thread Cert.KernelIdeal.nD Cert.KernelIdeal.τ).loc Cert.KernelIdeal.main_arg2) : Cert.KernelIdeal.S32x256x64.Idx → BitVec 32) j).toNat < 256 :=
    fun c j => Cert.PreFacts.idx_lt _ _ _ _ _ _ _ _ (hpre c) j
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Bridge.final m c (hfin c) (hidx c)), (h c).2⟩)
      (Cert.KernelIdeal.Value.run_blocks m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v19_eq,
      (hagree c).1, (hagree c).2.1, (hagree c).2.2.1, (hagree c).2.2.2.1, (hagree c).2.2.2.2.1,
      (hagree c).2.2.2.2.2.1, (hagree c).2.2.2.2.2.2.1, (hagree c).2.2.2.2.2.2.2]
    exact Cert.ReferenceIdeal.Bridge.ref_eq_G _ _ _ _ _ _ _ _ (hidx c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
